-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S128 : Shape := ⟨1, ![128]⟩
abbrev S128x128 : Shape := ⟨2, ![128, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg1 : IVec S1048576 32) (main_v13 : IVec S_ 1) (main_v15 : IVec S1048576 1) (main_c_5 : IVec S_ 32) : IVec S_ 1 :=
  let main_v16 : IVec S1048576 32 := broadcastInDim S1048576 ![] bcast_S_S1048576 main_c_5
  let main_v17 : IVec S1048576 1 := cmpi .slt main_arg1 main_v16
  let main_v18 : IVec S1048576 1 := andi main_v15 main_v17
  let main_c_6 : IVec S_ 1 := constantI S_ 1 1#1
  let main_v19 : IVec S_ 1 := (fun x v => Host.reduce IntOp.andi x v reducesTo_S1048576_S_d0 h_S_) main_v18 main_c_6
  let main_v20 : IVec S_ 1 := andi main_v13 main_v19
  main_v20

def fn {F : FTy → Type} [FloatOps F] (main_arg0 : FVec F S1048576x128 .f32) (main_arg1 : IVec S1048576 32) (main_arg2 : FVec F S128 .f32) (main_arg3 : FVec F S128x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 0#32
  let main_v14 : IVec S1048576 32 := broadcastInDim S1048576 ![] bcast_S_S1048576 main_c_4
  let main_v15 : IVec S1048576 1 := cmpi .sge main_arg1 main_v14
  let main_c_5 : IVec S_ 32 := constantI S_ 32 128#32
  fn_part1 (F := F) main_arg1 main_v13 main_v15 main_c_5
-- ==== Kernel.lean ====
abbrev S1048576x128 : Shape := ⟨2, ![1048576, 128]⟩
abbrev S1048576 : Shape := ⟨1, ![1048576]⟩
abbrev S128 : Shape := ⟨1, ![128]⟩
abbrev S128x128 : Shape := ⟨2, ![128, 128]⟩
abbrev S1048576x1 : Shape := ⟨2, ![1048576, 1]⟩
abbrev S1x128 : Shape := ⟨2, ![1, 128]⟩
abbrev S_ : Shape := ⟨0, ![]⟩
abbrev S16x128 : Shape := ⟨2, ![16, 128]⟩
abbrev S4096x1 : Shape := ⟨2, ![4096, 1]⟩
abbrev S4096x128 : Shape := ⟨2, ![4096, 128]⟩
abbrev S8x128 : Shape := ⟨2, ![8, 128]⟩
abbrev S4096 : Shape := ⟨1, ![4096]⟩
abbrev S1 : Shape := ⟨1, ![1]⟩
abbrev S1x1 : Shape := ⟨2, ![1, 1]⟩

abbrev nBuf : Space → Nat
  | .hbm => 33
  | .vmem => 8
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S128, .f32⟩
  | .hbm, ⟨3, _⟩ => ⟨S128x128, .f32⟩
  | .hbm, ⟨4, _⟩ => ⟨S1048576x1, .i32⟩
  | .hbm, ⟨5, _⟩ => ⟨S1x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S128x128, .f32⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S16x128, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S4096x1, .i32⟩
  | .local _ .vmem, ⟨1, _⟩ => ⟨S4096x1, .i32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S128x128, .f32⟩
  | .local _ .vmem, ⟨6, _⟩ => ⟨S8x128, .f32⟩
  | .local _ .vmem, ⟨7, _⟩ => ⟨S8x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1048576_S1048576x1 : S1048576.ShapeCasts S1048576x1
  shapeCasts_S128_S1x128 : S128.ShapeCasts S1x128
  bcast_S_S128x128 : S_.BroadcastsInDim S128x128 (![] : Fin 0 → Fin S128x128.rank)
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  reduces_S4096x128_S4096 : S4096x128.Reduces [1] S4096
  shapeCasts_S4096_S4096x1 : S4096.ShapeCasts S4096x1
  broadcasts_S4096x1_S4096x128 : S4096x1.Broadcasts S4096x128
  iota_S4096x128_d1_w32 : S4096x128.Iotas .tc 32 [1]
  natLt_1_32 : 1 < 32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S4096x1_S1 : S4096x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1048576x1.size a
  hwx0_0 : ∀ i : grid0.Coords, EltTy.bits .i32 = 32 ∨ (Rect.block (s := S1048576x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1048576x128.size a
  hwx0_1 : ∀ i : grid0.Coords, EltTy.bits .f32 = 32 ∨ (Rect.block (s := S1048576x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S1048576 : Shape := ⟨1, ![1048576]⟩
abbrev S128 : Shape := ⟨1, ![128]⟩
abbrev S128x128 : Shape := ⟨2, ![128, 128]⟩
abbrev S1048576x1 : Shape := ⟨2, ![1048576, 1]⟩
abbrev S1x128 : Shape := ⟨2, ![1, 128]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576, .i32⟩
  | .hbm, ⟨2, _⟩ => ⟨S128, .f32⟩
  | .hbm, ⟨3, _⟩ => ⟨S128x128, .f32⟩
  | .hbm, ⟨4, _⟩ => ⟨S1048576x1, .i32⟩
  | .hbm, ⟨5, _⟩ => ⟨S1x128, .i32⟩
  | .hbm, ⟨6, _⟩ => ⟨S1048576x128, .i32⟩
  | .hbm, ⟨7, _⟩ => ⟨S1048576x128, .i32⟩
  | .hbm, ⟨8, _⟩ => ⟨S1048576x128, .i1⟩
  | .hbm, ⟨9, _⟩ => ⟨S1048576x128, .f32⟩
  | .hbm, ⟨10, _⟩ => ⟨S_, .f32⟩
  | .hbm, ⟨11, _⟩ => ⟨S1048576x128, .f32⟩
  | .hbm, ⟨12, _⟩ => ⟨S1048576x128, .f32⟩
  | .hbm, ⟨13, _⟩ => ⟨S_, .f32⟩
  | .hbm, ⟨14, _⟩ => ⟨S1048576x128, .f32⟩
  | .hbm, ⟨15, _⟩ => ⟨S1048576x128, .f32⟩
  | .hbm, ⟨16, _⟩ => ⟨S_, .f32⟩
  | .hbm, ⟨17, _⟩ => ⟨S1048576, .f32⟩
  | .hbm, ⟨18, _⟩ => ⟨S_, .f32⟩
  | .hbm, ⟨19, _⟩ => ⟨S1048576, .f32⟩
  | .hbm, ⟨20, _⟩ => ⟨S1048576, .f32⟩
  | .hbm, ⟨21, _⟩ => ⟨S1048576x1, .f32⟩
  | .hbm, ⟨22, _⟩ => ⟨S1048576x128, .f32⟩
  | .hbm, ⟨23, _⟩ => ⟨S1048576x128, .f32⟩
  | .hbm, ⟨24, _⟩ => ⟨S1048576x128, .f32⟩
  | .hbm, ⟨25, _⟩ => ⟨S_, .f32⟩
  | .hbm, ⟨26, _⟩ => ⟨S1048576, .f32⟩
  | .hbm, ⟨27, _⟩ => ⟨S1048576x1, .f32⟩
  | .hbm, ⟨28, _⟩ => ⟨S1048576x1, .f32⟩
  | .hbm, ⟨29, _⟩ => ⟨S1048576x128, .f32⟩
  | .hbm, ⟨30, _⟩ => ⟨S1048576x128, .f32⟩
  | .hbm, ⟨31, _⟩ => ⟨S1048576x128, .f32⟩
  | .hbm, ⟨32, _⟩ => ⟨S_, .f32⟩
  | .hbm, ⟨33, _⟩ => ⟨S1048576x128, .f32⟩
  | .hbm, ⟨34, _⟩ => ⟨S1048576x128, .f32⟩
  | .hbm, ⟨35, _⟩ => ⟨S_, .f32⟩
  | .hbm, ⟨36, _⟩ => ⟨S1048576x128, .f32⟩
  | .hbm, ⟨37, _⟩ => ⟨S1048576x128, .f32⟩
  | .hbm, ⟨38, _⟩ => ⟨S1048576x128, .f32⟩
  | .hbm, ⟨39, _⟩ => ⟨S1048576x128, .f32⟩
  | .hbm, ⟨40, _⟩ => ⟨S_, .f32⟩
  | .hbm, ⟨41, _⟩ => ⟨S1048576, .f32⟩
  | .hbm, ⟨42, _⟩ => ⟨S1048576, .f32⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S1048576x1, .i32⟩
  | .hbm, ⟨51, _⟩ => ⟨S1048576, .f32⟩
  | .hbm, ⟨52, _⟩ => ⟨S1048576, .f32⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S128x128, .i32⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S128x128, .f32⟩
  | .hbm, ⟨66, _⟩ => ⟨S_, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S_, .i32⟩
  | .hbm, ⟨71, _⟩ => ⟨S1048576, .i32⟩
  | .hbm, ⟨72, _⟩ => ⟨S1048576, .i1⟩
  | .hbm, ⟨73, _⟩ => ⟨S_, .i32⟩
  | .hbm, ⟨74, _⟩ => ⟨S1048576, .i32⟩
  | .hbm, ⟨75, _⟩ => ⟨S1048576, .i32⟩
  | .hbm, ⟨76, _⟩ => ⟨S1048576, .i32⟩
  | .hbm, ⟨77, _⟩ => ⟨S1048576x1, .i32⟩
  | .hbm, ⟨78, _⟩ => ⟨S1048576x128, .f32⟩
  | .hbm, ⟨79, _⟩ => ⟨S1048576x128, .f32⟩
  | .hbm, ⟨80, _⟩ => ⟨S_, .f32⟩
  | .hbm, ⟨81, _⟩ => ⟨S1048576, .f32⟩
  | .hbm, ⟨82, _⟩ => ⟨S1048576, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_call1_cst_0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_cst_1 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_v5 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩
abbrev main_cst_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_c : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_5 : Ref sig .tc := ⟨.hbm, 53, rfl⟩
abbrev main_v23 : Ref sig .tc := ⟨.hbm, 54, rfl⟩
abbrev main_v24 : Ref sig .tc := ⟨.hbm, 55, rfl⟩
abbrev main_cst_6 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_8 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_9 : Ref sig .tc := ⟨.hbm, 70, rfl⟩
abbrev main_v36 : Ref sig .tc := ⟨.hbm, 71, rfl⟩
abbrev main_v37 : Ref sig .tc := ⟨.hbm, 72, rfl⟩
abbrev main_c_10 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_11 : Ref sig .tc := ⟨.hbm, 80, rfl⟩
abbrev main_v44 : Ref sig .tc := ⟨.hbm, 81, rfl⟩
abbrev main_v45 : Ref sig .tc := ⟨.hbm, 82, rfl⟩
abbrev main_cst_12 : Ref sig .tc := ⟨.hbm, 83, rfl⟩
abbrev main_v46 : Ref sig .tc := ⟨.hbm, 84, rfl⟩
abbrev main_cst_13 : Ref sig .tc := ⟨.hbm, 85, rfl⟩
abbrev main_v47 : Ref sig .tc := ⟨.hbm, 86, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  reducesTo_S1048576x128_S1048576_d1 : S1048576x128.ReducesTo [1] S1048576
  h_S_ : 0 < S_.numel
  bcast_S_S1048576 : S_.BroadcastsInDim S1048576 (![] : Fin 0 → Fin S1048576.rank)
  bcast_S_S128x128 : S_.BroadcastsInDim S128x128 (![] : Fin 0 → Fin S128x128.rank)
  reducesTo_S1048576_S_d0 : S1048576.ReducesTo [0] S_
  gather_S128_S1048576x1_S1048576_n_0_n_n_0_1_1_wf : GatherDims.WF S128 S1048576x1 S1048576 [] [0] [] [0] [] 1 ![1]
  gather_S128x128_S1048576x1_S1048576x128_1_0_n_n_0_1_1128_wf : GatherDims.WF S128x128 S1048576x1 S1048576x128 [1] [0] [] [0] [] 1 ![1, 128]

variable [Facts₀]

def gather_S128_S1048576x1_S1048576_n_0_n_n_0_1_1 : GatherDims S128 S1048576x1 S1048576 where
  offsetDims := []
  collapsedSliceDims := [0]
  operandBatchingDims := []
  startIndicesBatchingDims := []
  startIndexMap := [0]
  indexVectorDim := 1
  sliceSizes := ![1]
  wf := gather_S128_S1048576x1_S1048576_n_0_n_n_0_1_1_wf
def gather_S128x128_S1048576x1_S1048576x128_1_0_n_n_0_1_1128 : GatherDims S128x128 S1048576x1 S1048576x128 where
  offsetDims := [1]
  collapsedSliceDims := [0]
  operandBatchingDims := []
  startIndicesBatchingDims := []
  startIndexMap := [0]
  indexVectorDim := 1
  sliceSizes := ![1, 128]
  wf := gather_S128x128_S1048576x1_S1048576x128_1_0_n_n_0_1_1128_wf

class Facts : Prop extends Facts₀ where

variable [Facts]
-- ==== Proof.Spec.lean ====
/-
  The loss of ONE row, as each of the two programs spells it, over the extended reals.

  A row is 128 logits `x`, a class `t`, the 128 class weights `cw` and the 128 × 128 matrix `E` of excess
  penalties.  Both programs shift the row by its maximum, take `e = exp (x - max)`, `s = Σ e`, the log-probabilities
  `lp = (x - max) - log s`, probabilities `p`, the focal weight `(1 - p)²`, and return
  `-(Σ_j fw_j · (0.9·[j = t] + 0.1/128) · lp_j) · cw_t + Σ_j E_{t,j} · p_j`.
  They differ in four spellings: the kernel's `p` is `e · (1 / s)` and the reference's `exp lp`; the kernel squares
  by a product and the reference by `pow · 2`; the kernel splits the smoothed sum into `0.9 · fw_t · lp_t + (0.1/128) · Σ fw · lp`;
  and the kernel picks `cw_t` and row `t` of `E` by sums against the one-hot row where the reference indexes.
  `RowLoss.lean` proves the two equal on a row of real logits.
-/
import Idealize.ShloMosaic.PureOps.Ideal.Laws

noncomputable section

namespace Cert.Spec

open Idealize.ShloMosaic

/-- The float literals both programs carry, as the extended reals their words denote. -/
abbrev zero : EReal := Ideal.ofBits .f32 0x00000000#32
abbrev one : EReal := Ideal.ofBits .f32 0x3F800000#32
abbrev two : EReal := Ideal.ofBits .f32 0x40000000#32
/-- `f32 (1 - 0.1)`. -/
abbrev c9 : EReal := Ideal.ofBits .f32 0x3F666666#32
/-- `f32 (0.1 / 128)`. -/
abbrev cS : EReal := Ideal.ofBits .f32 0x3A4CCCCD#32
/-- `-∞`, the initial value of both row maxima. -/
abbrev ninf : EReal := Ideal.ofBits .f32 0xFF800000#32
/-- `2²⁰`, the number of rows, which both programs divide the total by. -/
abbrev cN : EReal := Ideal.ofBits .f32 0x49800000#32

/-- The one-hot row of class `t`. -/
def oh (t j : Fin 128) : EReal := if j = t then 1 else 0

/-- A row's maximum as both programs fold it: `max` over the 128 entries from `-∞`. -/
def rowMax (x : Fin 128 → EReal) : EReal := (Finset.univ : Finset (Fin 128)).fold max ninf x

/-! ## The kernel's spelling -/

def kShift (x : Fin 128 → EReal) (j : Fin 128) : EReal := x j - rowMax x
def kExp (x : Fin 128 → EReal) (j : Fin 128) : EReal := Ideal.exp (kShift x j)
def kSum (x : Fin 128 → EReal) : EReal := ∑ k : Fin 128, kExp x k
def kLogp (x : Fin 128 → EReal) (j : Fin 128) : EReal := kShift x j - Ideal.log (kSum x)
def kProb (x : Fin 128 → EReal) (j : Fin 128) : EReal := kExp x j * Ideal.div one (kSum x)
def kFocal (x : Fin 128 → EReal) (j : Fin 128) : EReal := (one - kProb x j) * (one - kProb x j)
/-- focal weight times log-probability -/
def kFl (x : Fin 128 → EReal) (j : Fin 128) : EReal := kFocal x j * kLogp x j
/-- The kernel's loss of one row. -/
def kRow (x : Fin 128 → EReal) (t : Fin 128) (cw : Fin 128 → EReal) (E : Fin 128 → Fin 128 → EReal) : EReal :=
  (zero - (c9 * (∑ j : Fin 128, oh t j * kFl x j) + cS * (∑ j : Fin 128, kFl x j))) * (∑ j : Fin 128, oh t j * cw j)
    + ∑ j : Fin 128, (∑ a : Fin 128, oh t a * E a j) * kProb x j

/-! ## The reference's spelling -/

def rShift (x : Fin 128 → EReal) (j : Fin 128) : EReal := x j - max ninf (rowMax x)
def rSum (x : Fin 128 → EReal) : EReal := zero + ∑ k : Fin 128, Ideal.exp (rShift x k)
def rLogp (x : Fin 128 → EReal) (j : Fin 128) : EReal := rShift x j - Ideal.log (rSum x)
def rProb (x : Fin 128 → EReal) (j : Fin 128) : EReal := Ideal.exp (rLogp x j)
def rFocal (x : Fin 128 → EReal) (j : Fin 128) : EReal := Ideal.pow (one - rProb x j) two
/-- The reference's loss of one row; `cwt` is the class weight it indexed and `Et` the row of `E` it gathered. -/
def rRow (x : Fin 128 → EReal) (t : Fin 128) (cwt : EReal) (Et : Fin 128 → EReal) : EReal :=
  -(zero + ∑ j : Fin 128, rFocal x j * (oh t j * c9 + cS) * rLogp x j) * cwt
    + (zero + ∑ j : Fin 128, Et j * rProb x j)

end Cert.Spec

end
-- ==== Proof.RefValue.lean ====
/-
  The reference's result, read: the quotient by 2²⁰ of zero plus the sum, over the 2²⁰ rows, of the row loss in the
  reference's spelling (Spec.lean), for targets that are classes below 128.

  The road: every stage of the reference is read at an explicit index (row `i`, class `j`) and identified with the
  piece of the row loss it computes — the row maximum, the shifted logits, the sum of exponentials, the
  log-probabilities, the probabilities, the focal weight, the smoothed one-hot weight, the base sum, the class
  weight and the row of excess penalties the two gathers pick, the confusion sum — then the row loss, then the total
  re-indexed from the rank-1 index set to `Fin 1048576`.
-/
import proofs.«405945_j2808908611737_3_alg».proof.Proof.RefRead
import proofs.«405945_j2808908611737_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP

/-- The four argument arrays' types: logits, classes, class weights, penalty matrix. -/
abbrev XT := (⟨S1048576x128, .f32⟩ : BufTy).Contents (Elt Ideal)
abbrev TT := (⟨S1048576, .i32⟩ : BufTy).Contents (Elt Ideal)
abbrev CT := (⟨S128, .f32⟩ : BufTy).Contents (Elt Ideal)
abbrev PT := (⟨S128x128, .f32⟩ : BufTy).Contents (Elt Ideal)

/-! ## Words: a class below 128 as a 32-bit word -/

/-- For a class `n < 128` the word of `n` is not negative, so the wrap-around select keeps it, and read signed and
    clamped into `[0, 127]` it is `n` again. Decided over the 128 classes. -/
theorem word_facts : ∀ n : Fin 128,
    Scalar.select (IntOp.cmpi .slt (BitVec.ofNat 32 n.val) 0#32) (IntOp.addi (BitVec.ofNat 32 n.val) 128#32) (BitVec.ofNat 32 n.val)
        = BitVec.ofNat 32 n.val
      ∧ min (BitVec.ofNat 32 n.val).toInt.toNat (128 - 1) = n.val := by
  decide +kernel

/-- The words of two classes below 128 are equal exactly when the classes are: the comparison bit, converted to a
    float, is the one-hot entry. -/
theorem onehot_word (n j : Fin 128) :
    FloatOps.uitofp (F := Ideal) .f32 (IntOp.cmpi .eq (BitVec.ofNat 32 n.val) (BitVec.ofNat 32 j.val)) = Cert.Spec.oh n j := by
  unfold Cert.Spec.oh
  by_cases h : j = n
  · subst h
    rw [if_pos rfl]
    have hb : IntOp.cmpi .eq (BitVec.ofNat 32 j.val) (BitVec.ofNat 32 j.val) = 1#1 := by
      unfold IntOp.cmpi
      show BitVec.ofBool (BitVec.ofNat 32 j.val == BitVec.ofNat 32 j.val) = 1#1
      rw [beq_self_eq_true]; rfl
    rw [hb]
    show (((1#1 : BitVec 1).toNat : ℝ) : EReal) = 1
    norm_num
  · rw [if_neg h]
    have hne : BitVec.ofNat 32 n.val ≠ BitVec.ofNat 32 j.val := by
      intro hab
      have h2 := congrArg BitVec.toNat hab
      rw [BitVec.toNat_ofNat, BitVec.toNat_ofNat] at h2
      have hn := n.isLt
      have hj := j.isLt
      exact h (Fin.ext (by omega))
    have hb : IntOp.cmpi .eq (BitVec.ofNat 32 n.val) (BitVec.ofNat 32 j.val) = 0#1 := by
      unfold IntOp.cmpi
      show BitVec.ofBool (BitVec.ofNat 32 n.val == BitVec.ofNat 32 j.val) = 0#1
      rw [beq_eq_false_iff_ne.mpr hne]; rfl
    rw [hb]
    show (((0#1 : BitVec 1).toNat : ℝ) : EReal) = 0
    norm_num

/-! ## The row maximum -/

/-- The result index `i` of the reduction over the class axis, with class `k` put back, is `(i, k)`. -/
theorem lift_row (h : S1048576x128.Reduces [1] S1048576) (i : Fin 1048576) (k : Fin 128) :
    h.lift (ix1 i) k = ix2 i k := by
  funext c; apply Fin.ext
  match c with
  | ⟨0, _⟩ => rfl
  | ⟨1, _⟩ => rfl

/-- The reduction with a maximum body over the class axis, from `-∞`, at row `i`: the fold of `max` over the row. -/
theorem rowmax_apply (x : XT) (i : Fin 1048576) :
    val_main_call1_v0 (F := Ideal) x (ix1 i) = Cert.Spec.rowMax (fun j : Fin 128 => x (ix2 i j)) := by
  unfold val_main_call1_v0
  have hR : S1048576x128.Reduces [1] S1048576 := by decide
  refine (Host.reduce_eq_fold_single (α := Ideal .f32) (FloatOps.maximumf (F := Ideal) (φ := .f32)) x
    (val_main_call1_cst (F := Ideal)) reducesTo_S1048576x128_S1048576_d1 hR h_S_ (ix1 i)).trans ?_
  have hf : (x ∘ hR.lift (ix1 i)) = fun k : Fin 128 => x (ix2 i k) := funext fun k => congrArg x (lift_row hR i k)
  unfold Cert.Spec.rowMax
  exact congrArg (fun f => Finset.fold max Cert.Spec.ninf f (Finset.univ : Finset (Fin 128))) hf

/-- The maximum of `-∞` and the row maximum, broadcast along the row. -/
theorem bmax_apply (x : XT) (i : Fin 1048576) (j : Fin 128) :
    val_main_call1_v4 (F := Ideal) x (ix2 i j)
      = max Cert.Spec.ninf (Cert.Spec.rowMax (fun j : Fin 128 => x (ix2 i j))) := by
  have e : idx_main_call1_v3 (idx_main_call1_v4 (ix2 i j)) = ix1 i :=
    funext fun a => Fin.ext (by match a with | ⟨0, _⟩ => rfl)
  rw [val_main_call1_v4_apply, val_main_call1_v3_apply, e, val_main_call1_v2_apply, val_main_call1_v1_apply,
    rowmax_apply]
  rfl

/-! ## The log-softmax of a row -/

/-- The shifted logit. -/
theorem shift_apply (x : XT) (i : Fin 1048576) (j : Fin 128) :
    val_main_call1_v5 (F := Ideal) x (ix2 i j) = Cert.Spec.rShift (fun j : Fin 128 => x (ix2 i j)) j := by
  rw [val_main_call1_v5_apply, bmax_apply]
  rfl

/-- Zero plus the sum over the row of the exponentials of the shifted logits. -/
theorem rsum_apply (x : XT) (i : Fin 1048576) :
    val_main_call1_v7 (F := Ideal) x (ix1 i) = Cert.Spec.rSum (fun j : Fin 128 => x (ix2 i j)) := by
  rw [val_main_call1_v7_apply]
  unfold Cert.Spec.rSum
  refine congrArg₂ (· + ·) rfl (Finset.sum_congr rfl fun k _ => ?_)
  have e : idx_main_call1_v7 (ix1 i) k = ix2 i k :=
    funext fun a => Fin.ext (by match a with | ⟨0, _⟩ => rfl | ⟨1, _⟩ => rfl)
  rw [e, val_main_call1_v6_apply, shift_apply]
  rfl

/-- The log-probability. -/
theorem logp_apply (x : XT) (i : Fin 1048576) (j : Fin 128) :
    val_main_v5 (F := Ideal) x (ix2 i j) = Cert.Spec.rLogp (fun j : Fin 128 => x (ix2 i j)) j := by
  have e : idx_main_call1_v8 (idx_main_call1_v10 (ix2 i j)) = ix1 i :=
    funext fun a => Fin.ext (by match a with | ⟨0, _⟩ => rfl)
  rw [val_main_v5_apply, shift_apply, val_main_call1_v10_apply, val_main_call1_v9_apply, val_main_call1_v8_apply, e,
    rsum_apply]
  rfl

/-- The probability. -/
theorem prob_apply (x : XT) (i : Fin 1048576) (j : Fin 128) :
    val_main_v6 (F := Ideal) x (ix2 i j) = Cert.Spec.rProb (fun j : Fin 128 => x (ix2 i j)) j := by
  rw [val_main_v6_apply, logp_apply]
  rfl

/-- The focal weight: one minus the probability, to the power two. -/
theorem focal_apply (x : XT) (i : Fin 1048576) (j : Fin 128) :
    val_main_v10 (F := Ideal) x (ix2 i j) = Cert.Spec.rFocal (fun j : Fin 128 => x (ix2 i j)) j := by
  rw [val_main_v10_apply, val_main_v8_apply, val_main_v7_apply, val_main_v9_apply, prob_apply]
  rfl

/-! ## The smoothed one-hot weight and the base sum -/

/-- The smoothed target weight of class `j` in a row of class `tn i`: the one-hot entry times `0.9` plus `0.1 / 128`. -/
theorem smooth_apply (t : TT) (tn : Fin 1048576 → Fin 128) (ht : ∀ i : Fin 1048576, t (ix1 i) = BitVec.ofNat 32 (tn i).val)
    (i : Fin 1048576) (j : Fin 128) :
    val_main_v4 (F := Ideal) t (ix2 i j) = Cert.Spec.oh (tn i) j * Cert.Spec.c9 + Cert.Spec.cS := by
  have e : idx_main_call0_v0 (idx_main_call0_v2 (ix2 i j)) = ix1 i :=
    funext fun a => Fin.ext (by match a with | ⟨0, _⟩ => rfl)
  rw [val_main_v4_apply, val_main_v2_apply, val_main_v3_apply, val_main_v1_apply, val_main_v0_apply,
    val_main_call0_v4_apply, val_main_call0_v2_apply, val_main_call0_v0_apply, e, ht i, val_main_call0_v3_apply,
    val_main_call0_v1_apply]
  show FloatOps.uitofp (F := Ideal) .f32 (IntOp.cmpi .eq (BitVec.ofNat 32 (tn i).val) (BitVec.ofNat 32 j.val)) * Cert.Spec.c9
      + Cert.Spec.cS = _
  rw [onehot_word]

/-- Zero plus the sum over the row of focal weight times smoothed weight times log-probability. -/
theorem base_apply (x : XT) (t : TT) (tn : Fin 1048576 → Fin 128)
    (ht : ∀ i : Fin 1048576, t (ix1 i) = BitVec.ofNat 32 (tn i).val) (i : Fin 1048576) :
    val_main_v13 (F := Ideal) x t (ix1 i)
      = Cert.Spec.zero + ∑ j : Fin 128, Cert.Spec.rFocal (fun j : Fin 128 => x (ix2 i j)) j
          * (Cert.Spec.oh (tn i) j * Cert.Spec.c9 + Cert.Spec.cS) * Cert.Spec.rLogp (fun j : Fin 128 => x (ix2 i j)) j := by
  rw [val_main_v13_apply]
  refine congrArg₂ (· + ·) rfl (Finset.sum_congr rfl fun k _ => ?_)
  have e : idx_main_v13 (ix1 i) k = ix2 i k :=
    funext fun a => Fin.ext (by match a with | ⟨0, _⟩ => rfl | ⟨1, _⟩ => rfl)
  rw [e, val_main_v12_apply, val_main_v11_apply, focal_apply, smooth_apply t tn ht, logp_apply]
  rfl

/-! ## The two gathers -/

/-- The gather of the class weights at a column of start indices, at row `i`: the weight at the start index read
    signed and clamped into `[0, 127]`. The one operand axis is collapsed and mapped by the start index. -/
theorem gather_cw_apply (cw : CT) (idx : IVec S1048576x1 32) (i : Fin 1048576) :
    Host.gather gather_S128_S1048576x1_S1048576_n_0_n_n_0_1_1 cw idx (ix1 i)
      = cw (ix1 ⟨min (idx (ix2 i 0)).toInt.toNat (128 - 1), by omega⟩) := by
  unfold Host.gather
  congr 1
  funext a
  obtain rfl : a = 0 := Subsingleton.elim _ _
  refine Fin.ext ?_
  show gather_S128_S1048576x1_S1048576_n_0_n_n_0_1_1.start (ix1 i) idx 0
      + gather_S128_S1048576x1_S1048576_n_0_n_n_0_1_1.batchCoord (ix1 i) 0
      + gather_S128_S1048576x1_S1048576_n_0_n_n_0_1_1.offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S128_S1048576x1_S1048576_n_0_n_n_0_1_1.startIndexMap from List.mem_singleton.mpr rfl)]
  have hsi : gather_S128_S1048576x1_S1048576_n_0_n_n_0_1_1.siIdx (ix1 i)
      ⟨List.idxOf (0 : Fin 1) gather_S128_S1048576x1_S1048576_n_0_n_n_0_1_1.startIndexMap,
        List.idxOf_lt_length_iff.2 (List.mem_singleton.mpr rfl)⟩ = ix2 i 0 := by
    funext b; refine Fin.ext ?_
    match b with
    | ⟨0, _⟩ => rfl
    | ⟨1, _⟩ => rfl
  rw [hsi]
  rfl

/-- The gather of rows of a 128 × 128 matrix at a column of start indices, at `(i, j)`: the matrix at the row the start
    index names, read signed and clamped into `[0, 127]`, and column `j`. The row axis is collapsed and mapped by the
    start index; the column axis is the offset axis and takes the result's second coordinate. -/
theorem gather_rows_apply (E : PT) (idx : IVec S1048576x1 32) (i : Fin 1048576) (j : Fin 128) :
    Host.gather gather_S128x128_S1048576x1_S1048576x128_1_0_n_n_0_1_1128 E idx (ix2 i j)
      = E (ix2 ⟨min (idx (ix2 i 0)).toInt.toNat (128 - 1), by omega⟩ j) := by
  unfold Host.gather
  congr 1
  funext a
  refine Fin.ext ?_
  match a with
  | ⟨0, _⟩ =>
    show gather_S128x128_S1048576x1_S1048576x128_1_0_n_n_0_1_1128.start (ix2 i j) idx 0
        + gather_S128x128_S1048576x1_S1048576x128_1_0_n_n_0_1_1128.batchCoord (ix2 i j) 0
        + gather_S128x128_S1048576x1_S1048576x128_1_0_n_n_0_1_1128.offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128x128_S1048576x1_S1048576x128_1_0_n_n_0_1_1128.startIndexMap from List.mem_singleton.mpr rfl)]
    have hsi : gather_S128x128_S1048576x1_S1048576x128_1_0_n_n_0_1_1128.siIdx (ix2 i j)
        ⟨List.idxOf (0 : Fin 2) gather_S128x128_S1048576x1_S1048576x128_1_0_n_n_0_1_1128.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show gather_S128x128_S1048576x1_S1048576x128_1_0_n_n_0_1_1128.start (ix2 i j) idx 1
        + gather_S128x128_S1048576x1_S1048576x128_1_0_n_n_0_1_1128.batchCoord (ix2 i j) 1
        + gather_S128x128_S1048576x1_S1048576x128_1_0_n_n_0_1_1128.offCoord (ix2 i j) 1 = j.val
    rw [GatherDims.batchCoord_eq_zero _ _ _ List.not_mem_nil]
    have hs : gather_S128x128_S1048576x1_S1048576x128_1_0_n_n_0_1_1128.start (ix2 i j) idx 1 = 0 := by
      unfold GatherDims.start
      rw [dif_neg (show ¬ (1 : Fin 2) ∈ gather_S128x128_S1048576x1_S1048576x128_1_0_n_n_0_1_1128.startIndexMap by decide)]
    rw [hs]
    simp only [Nat.add_zero, Nat.zero_add]
    rfl

/-- The start index both gathers read at row `i`: the class's word (it is not negative, so the select keeps it). -/
theorem start20_apply (t : TT) (tn : Fin 1048576 → Fin 128) (ht : ∀ i : Fin 1048576, t (ix1 i) = BitVec.ofNat 32 (tn i).val)
    (i : Fin 1048576) : val_main_v20 (F := Ideal) t (ix2 i 0) = BitVec.ofNat 32 (tn i).val := by
  have e : idx_main_v20 (ix2 i (0 : Fin 1)) = ix1 i :=
    funext fun a => Fin.ext (by match a with | ⟨0, _⟩ => rfl)
  rw [val_main_v20_apply, e, val_main_v19_apply, val_main_v16_apply, val_main_v18_apply, val_main_v15_apply,
    val_main_v17_apply, ht i]
  exact (word_facts (tn i)).1

theorem start41_apply (t : TT) (tn : Fin 1048576 → Fin 128) (ht : ∀ i : Fin 1048576, t (ix1 i) = BitVec.ofNat 32 (tn i).val)
    (i : Fin 1048576) : val_main_v41 (F := Ideal) t (ix2 i 0) = BitVec.ofNat 32 (tn i).val := by
  have e : idx_main_v41 (ix2 i (0 : Fin 1)) = ix1 i :=
    funext fun a => Fin.ext (by match a with | ⟨0, _⟩ => rfl)
  rw [val_main_v41_apply, e, val_main_v40_apply, val_main_v37_apply, val_main_v39_apply, val_main_v36_apply,
    val_main_v38_apply, ht i]
  exact (word_facts (tn i)).1

/-- The class weight the reference indexes at row `i`. -/
theorem cwt_apply (t : TT) (cw : CT) (tn : Fin 1048576 → Fin 128)
    (ht : ∀ i : Fin 1048576, t (ix1 i) = BitVec.ofNat 32 (tn i).val) (i : Fin 1048576) :
    val_main_v21 (F := Ideal) t cw (ix1 i) = cw (ix1 (tn i)) := by
  unfold val_main_v21
  refine (gather_cw_apply cw (val_main_v20 (F := Ideal) t) i).trans ?_
  refine congrArg cw (congrArg ix1 (Fin.ext ?_))
  show min (val_main_v20 (F := Ideal) t (ix2 i 0)).toInt.toNat (128 - 1) = (tn i).val
  rw [start20_apply t tn ht i]
  exact (word_facts (tn i)).2

/-- The row of excess penalties the reference gathers at row `i`. -/
theorem erow_apply (t : TT) (P : PT) (tn : Fin 1048576 → Fin 128)
    (ht : ∀ i : Fin 1048576, t (ix1 i) = BitVec.ofNat 32 (tn i).val) (i : Fin 1048576) (j : Fin 128) :
    val_main_v42 (F := Ideal) t P (ix2 i j) = val_main_v35 (F := Ideal) P (ix2 (tn i) j) := by
  unfold val_main_v42
  generalize val_main_v35 (F := Ideal) P = E
  refine (gather_rows_apply E (val_main_v41 (F := Ideal) t) i j).trans ?_
  refine congrArg E (congrArg (fun a : Fin 128 => ix2 a j) (Fin.ext ?_))
  show min (val_main_v41 (F := Ideal) t (ix2 i 0)).toInt.toNat (128 - 1) = (tn i).val
  rw [start41_apply t tn ht i]
  exact (word_facts (tn i)).2

/-! ## The confusion sum, the row loss, the total -/

/-- Zero plus the sum over the row of excess penalty times probability. -/
theorem conf_apply (x : XT) (t : TT) (P : PT) (tn : Fin 1048576 → Fin 128)
    (ht : ∀ i : Fin 1048576, t (ix1 i) = BitVec.ofNat 32 (tn i).val) (i : Fin 1048576) :
    val_main_v44 (F := Ideal) x t P (ix1 i)
      = Cert.Spec.zero + ∑ j : Fin 128, val_main_v35 (F := Ideal) P (ix2 (tn i) j)
          * Cert.Spec.rProb (fun j : Fin 128 => x (ix2 i j)) j := by
  rw [val_main_v44_apply]
  refine congrArg₂ (· + ·) rfl (Finset.sum_congr rfl fun k _ => ?_)
  have e : idx_main_v44 (ix1 i) k = ix2 i k :=
    funext fun a => Fin.ext (by match a with | ⟨0, _⟩ => rfl | ⟨1, _⟩ => rfl)
  rw [e, val_main_v43_apply, erow_apply t P tn ht, prob_apply]
  rfl

/-- Row `i`'s loss, in the reference's spelling. -/
theorem row_apply (x : XT) (t : TT) (cw : CT) (P : PT) (tn : Fin 1048576 → Fin 128)
    (ht : ∀ i : Fin 1048576, t (ix1 i) = BitVec.ofNat 32 (tn i).val) (i : Fin 1048576) :
    val_main_v45 (F := Ideal) x t cw P (ix1 i)
      = Cert.Spec.rRow (fun j : Fin 128 => x (ix2 i j)) (tn i) (cw (ix1 (tn i)))
          (fun j : Fin 128 => val_main_v35 (F := Ideal) P (ix2 (tn i) j)) := by
  rw [val_main_v45_apply, val_main_v22_apply, val_main_v14_apply, base_apply x t tn ht, cwt_apply t cw tn ht,
    conf_apply x t P tn ht]
  rfl

/-- The rank-1 index set of the rows is `Fin 1048576`, by the one coordinate. -/
def rowEquiv : Fin 1048576 ≃ S1048576.Idx where
  toFun := ix1
  invFun := fun j => j 0
  left_inv := fun _ => rfl
  right_inv := fun j => (eq_ix1 j).symm

/-- The reference's scalar result as a sum of row losses. Row `i`'s class weight is `cw` at its class and its row of
    excess penalties is that row of the matrix the reference computes from the penalty matrix (`val_main_v35`). -/
theorem result_apply (x : (⟨S1048576x128, .f32⟩ : BufTy).Contents (Elt Ideal)) (t : (⟨S1048576, .i32⟩ : BufTy).Contents (Elt Ideal))
    (cw : (⟨S128, .f32⟩ : BufTy).Contents (Elt Ideal)) (P : (⟨S128x128, .f32⟩ : BufTy).Contents (Elt Ideal))
    (tn : Fin 1048576 → Fin 128) (ht : ∀ i : Fin 1048576, t (ix1 i) = BitVec.ofNat 32 (tn i).val) :
    val_main_v47 (F := Ideal) x t cw P ix0
      = Ideal.div (Cert.Spec.zero + ∑ i : Fin 1048576, Cert.Spec.rRow (fun j : Fin 128 => x (ix2 i j)) (tn i)
            (cw (ix1 (tn i))) (fun j : Fin 128 => val_main_v35 (F := Ideal) P (ix2 (tn i) j))) Cert.Spec.cN := by
  rw [val_main_v47_apply, val_main_v46_apply]
  refine congrArg₂ Ideal.div (congrArg₂ (· + ·) rfl ?_) rfl
  refine (Equiv.sum_comp rowEquiv (val_main_v45 (F := Ideal) x t cw P)).symm.trans ?_
  exact Finset.sum_congr rfl fun i _ => row_apply x t cw P tn ht i

end Cert.ReferenceIdeal.RefValue

end
-- ==== Proof.KernelPieces.lean ====
/-
  What the idealized kernel's body leaves in the output's staging block, case by case, as ONE pure function of the
  point's input blocks and of the block's previous contents: the body's last store overwrites the whole block with
  `previous + delta`, where the previous contents are the zero block at a point that resets (the first point of a
  core's run of 128) and what the point before left at every other point.
-/
import proofs.«405945_j2808908611737_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The block the body's last store writes: the payload of the store over the blocks the body loaded
    (targets `x0`, logits `x1`, class weights `x2`, excess penalties `x3`) and the output block's contents `prev`. -/
def stored (x0 : Vec F S4096x1 .i32) (x1 : Vec F S4096x128 .f32) (x2 : Vec F S1x128 .f32) (x3 : Vec F S128x128 .f32)
    (prev : Vec F S8x128 .f32) : Vec F S8x128 .f32 :=
  k0_pay1 (k0_pay6 x1) (k0_pay7 x0) (k0_pay8 x1 x0) x2 x3 prev

/-- A point that does not reset: the one store's payload over the previous contents. -/
theorem out_B (c : Dev nD) (i : grid0.Coords) (a2 : Memref sig .tc .vmem S4096x1 .i32) (h2 : a2.IsWhole)
    (a3 : Memref sig .tc .vmem S4096x128 .f32) (h3 : a3.IsWhole) (a4 : Memref sig .tc .vmem S1x128 .f32) (h4 : a4.IsWhole)
    (a5 : Memref sig .tc .vmem S128x128 .f32) (h5 : a5.IsWhole) (a6 : Memref sig .tc .vmem S8x128 .f32) (h6 : a6.IsWhole)
    (hc : ¬cond0_0 i) (x0 : Vec F S4096x1 .i32) (x1 : Vec F S4096x128 .f32) (x2 : Vec F S1x128 .f32)
    (x3 : Vec F S128x128 .f32) (xo : Vec F S8x128 .f32) :
    out0_B_4 c i a2 h2 a3 h3 a4 h4 a5 h5 a6 h6 hc x0 x1 x2 x3 xo = stored x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  unfold stored
  simp only [View.readAt_eq_ld, h2.read_unread, h3.read_unread, h4.read_unread, h5.read_unread, h6.read_unread,
    View.ld_unit_zero (S := S4096x1) hz, View.ld_unit_zero (S := S4096x128) hz, View.ld_unit_zero (S := S1x128) hz,
    View.ld_unit_zero (S := S128x128) hz, View.ld_unit_zero (S := S8x128) hz]

/-- A point that resets: the body first stores the zero block, reads it back, and its last store writes the payload
    over it. -/
theorem out_A (c : Dev nD) (i : grid0.Coords) (a2 : Memref sig .tc .vmem S4096x1 .i32) (h2 : a2.IsWhole)
    (a3 : Memref sig .tc .vmem S4096x128 .f32) (h3 : a3.IsWhole) (a4 : Memref sig .tc .vmem S1x128 .f32) (h4 : a4.IsWhole)
    (a5 : Memref sig .tc .vmem S128x128 .f32) (h5 : a5.IsWhole) (a6 : Memref sig .tc .vmem S8x128 .f32) (h6 : a6.IsWhole)
    (hc : cond0_0 i) (x0 : Vec F S4096x1 .i32) (x1 : Vec F S4096x128 .f32) (x2 : Vec F S1x128 .f32)
    (x3 : Vec F S128x128 .f32) :
    out0_A_4 c i a2 h2 a3 h3 a4 h4 a5 h5 a6 h6 hc x0 x1 x2 x3 = stored x0 x1 x2 x3 (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S8x128) hz]
  unfold stored
  simp only [View.readAt_eq_ld, h2.read_unread, h3.read_unread, h4.read_unread, h5.read_unread,
    View.readCov_unit_zero (S := S8x128) _ hz,
    View.ld_unit_zero (S := S4096x1) hz, View.ld_unit_zero (S := S4096x128) hz, View.ld_unit_zero (S := S1x128) hz,
    View.ld_unit_zero (S := S128x128) hz, View.ld_unit_zero (S := S8x128) hz]

end Cert.KernelIdeal.Pieces

end
-- ==== Proof.KernelRow.lean ====
/-
  What the idealized kernel's body stores at one grid point, read at an entry: the block's previous contents plus, at
  entry (0, 0) only, the sum over the block's 4096 rows of the row loss in the kernel's spelling (Spec.lean); every
  other entry gets the previous contents plus zero.

  The road: each layout operation of the body is read at an index given by coordinates (a per-row value viewed as a
  column, a column broadcast along the lanes, the class-weight row broadcast down the rows, the one total broadcast over
  the output block); each lane reduction is the sum, or the fold of `max`, over the 128 coordinates of a row, and the
  final reduction the sum over the 4096 rows; the product with the excess matrix at `(q, j)` is the sum over the
  contracted coordinate; the one-hot entry at `(q, j)` is `1` exactly when `j` is the row's class. With these the
  payloads are, entry by entry, the pieces of `Spec.kRow`, in the same operand order.
-/
import proofs.«405945_j2808908611737_3_alg».proof.Proof.Gen.KernelIdeal.Skeleton
import proofs.«405945_j2808908611737_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen

/-! ## Layout operations the body uses, read at an index given by coordinates -/

section Layout
variable {α : Type}

/-- A vector of `a` entries viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## The reductions at an index -/

/-- The sum along the lanes of a `[4096, 128]` block, at row `q`. -/
theorem rowSum_apply (src : FVec Ideal S4096x128 .f32) (h : S4096x128.Reduces [1] S4096)
    (hφ : FKind.Formats .f32) (hacc : (0x00000000#32 : BitVec 32) = FKind.add.neutral .f32 hφ) (q : Fin 4096) :
    multiReduction .add [1] S4096 src 0x00000000#32 h hφ hacc (ix1 q) = ∑ k : Fin 128, src (ix2 q k) := by
  refine (Ideal.multiReduction_add_single src _ h hφ hacc (ix1 q)).trans ?_
  show ∑ k : Fin 128, src (h.lift (ix1 q) k) = _
  refine Finset.sum_congr rfl fun k _ => congrArg src ?_
  funext a
  match a with
  | ⟨0, _⟩ => exact Fin.ext rfl
  | ⟨1, _⟩ => exact Fin.ext rfl

/-- The maximum along the lanes of a `[4096, 128]` block, at row `q`: the fold of `max` from `-∞`. -/
theorem rowMax_apply (src : FVec Ideal S4096x128 .f32) (h : S4096x128.Reduces [1] S4096)
    (hφ : FKind.Formats .f32) (hacc : (0xFF800000#32 : BitVec 32) = FKind.maximumf.neutral .f32 hφ) (q : Fin 4096) :
    multiReduction .maximumf [1] S4096 src 0xFF800000#32 h hφ hacc (ix1 q)
      = Cert.Spec.rowMax (fun k : Fin 128 => src (ix2 q k)) := by
  refine (Ideal.multiReduction_maximumf_single src _ h hφ hacc (ix1 q)).trans ?_
  show (Finset.univ : Finset (Fin 128)).fold max (Ideal.ofBits .f32 0xFF800000#32) (src ∘ h.lift (ix1 q)) = _
  have hf : (src ∘ h.lift (ix1 q) : Fin 128 → EReal) = fun k : Fin 128 => src (ix2 q k) := by
    funext k
    refine congrArg src ?_
    funext a
    match a with
    | ⟨0, _⟩ => exact Fin.ext rfl
    | ⟨1, _⟩ => exact Fin.ext rfl
  exact congrArg (fun f : Fin 128 → EReal => (Finset.univ : Finset (Fin 128)).fold max Cert.Spec.ninf f) hf

/-- The sum down the rows of a `[4096, 1]` column. -/
theorem colSum_apply (src : FVec Ideal S4096x1 .f32) (h : S4096x1.Reduces [0] S1)
    (hφ : FKind.Formats .f32) (hacc : (0x00000000#32 : BitVec 32) = FKind.add.neutral .f32 hφ) (u : Fin 1) :
    multiReduction .add [0] S1 src 0x00000000#32 h hφ hacc (ix1 u) = ∑ q : Fin 4096, src (ix2 q (0 : Fin 1)) := by
  refine (Ideal.multiReduction_add_single src _ h hφ hacc (ix1 u)).trans ?_
  show ∑ q : Fin 4096, src (h.lift (ix1 u) q) = _
  refine Finset.sum_congr rfl fun q _ => congrArg src ?_
  funext a
  match a with
  | ⟨0, _⟩ => exact Fin.ext rfl
  | ⟨1, _⟩ => exact Fin.ext (by show (u : ℕ) = 0; omega)

/-! ## The product with the excess matrix at an index -/

theorem lhs_axis0 (j : S4096x128.Idx) (k : dot_S4096x128_S128x128_S4096x128_1_0_0_1_n_n.contr.Idx) :
    (dot_S4096x128_S128x128_S4096x128_1_0_0_1_n_n.lhsIdx j k 0 : ℕ) = j 0 := by
  simp [DotDims.lhsIdx, dot_S4096x128_S128x128_S4096x128_1_0_0_1_n_n]; rfl
theorem lhs_axis1 (j : S4096x128.Idx) (k : dot_S4096x128_S128x128_S4096x128_1_0_0_1_n_n.contr.Idx) :
    (dot_S4096x128_S128x128_S4096x128_1_0_0_1_n_n.lhsIdx j k 1 : ℕ) = k ⟨0, by decide⟩ := by
  simp [DotDims.lhsIdx, dot_S4096x128_S128x128_S4096x128_1_0_0_1_n_n]; rfl
theorem rhs_axis0 (j : S4096x128.Idx) (k : dot_S4096x128_S128x128_S4096x128_1_0_0_1_n_n.contr.Idx) :
    (dot_S4096x128_S128x128_S4096x128_1_0_0_1_n_n.rhsIdx j k 0 : ℕ) = k ⟨0, by decide⟩ := by
  simp [DotDims.rhsIdx, dot_S4096x128_S128x128_S4096x128_1_0_0_1_n_n]; rfl
theorem rhs_axis1 (j : S4096x128.Idx) (k : dot_S4096x128_S128x128_S4096x128_1_0_0_1_n_n.contr.Idx) :
    (dot_S4096x128_S128x128_S4096x128_1_0_0_1_n_n.rhsIdx j k 1 : ℕ) = j 1 := by
  simp [DotDims.rhsIdx, dot_S4096x128_S128x128_S4096x128_1_0_0_1_n_n]; rfl

/-- The product of a `[4096, 128]` block with a `[128, 128]` matrix, accumulated into zero, at `(q, j)`. -/
theorem matmul_apply_ix (A : FVec Ideal S4096x128 .f32) (B : FVec Ideal S128x128 .f32) (q : Fin 4096) (j : Fin 128) :
    matmul dot_S4096x128_S128x128_S4096x128_1_0_0_1_n_n none A B (constant (F := Ideal) S4096x128 .f32 0x00000000#32) (ix2 q j)
      = ∑ a : Fin 128, A (ix2 q a) * B (ix2 a j) := by
  refine (Ideal.matmul_constant_zero_apply dot_S4096x128_S128x128_S4096x128_1_0_0_1_n_n none A B (ix2 q j)).trans ?_
  rw [← Equiv.sum_comp (contrEquiv1 dot_S4096x128_S128x128_S4096x128_1_0_0_1_n_n 128 rfl rfl).symm]
  refine Finset.sum_congr rfl fun a _ => ?_
  have hk := contrEquiv1_symm_val dot_S4096x128_S128x128_S4096x128_1_0_0_1_n_n 128 rfl rfl a
  have hl : dot_S4096x128_S128x128_S4096x128_1_0_0_1_n_n.lhsIdx (ix2 q j)
      ((contrEquiv1 dot_S4096x128_S128x128_S4096x128_1_0_0_1_n_n 128 rfl rfl).symm a) = ix2 q a := by
    funext ax; refine Fin.ext ?_
    match ax with
    | ⟨0, _⟩ => exact lhs_axis0 _ _
    | ⟨1, _⟩ => exact (lhs_axis1 _ _).trans hk
  have hr : dot_S4096x128_S128x128_S4096x128_1_0_0_1_n_n.rhsIdx (ix2 q j)
      ((contrEquiv1 dot_S4096x128_S128x128_S4096x128_1_0_0_1_n_n 128 rfl rfl).symm a) = ix2 a j := by
    funext ax; refine Fin.ext ?_
    match ax with
    | ⟨0, _⟩ => exact (rhs_axis0 _ _).trans hk
    | ⟨1, _⟩ => exact rhs_axis1 _ _
  rw [hl, hr]

/-! ## Words: the one-hot bit and the corner mask -/

/-- Two numbers below `2³²` compare equal as 32-bit words exactly when they are equal; the bit, zero-extended and read as a
    signed integer, is `1` or `0`. -/
theorem oneHot_word (a b : ℕ) (ha : a < 2 ^ 32) (hb : b < 2 ^ 32) :
    ((((IntOp.cmpi .eq (BitVec.ofNat 32 a) (BitVec.ofNat 32 b)).setWidth 32).toInt : ℝ) : EReal) = if a = b then 1 else 0 := by
  unfold IntOp.cmpi
  by_cases h : a = b
  · subst h; simp
  · have hne : (BitVec.ofNat 32 a == BitVec.ofNat 32 b) = false := by
      rw [beq_eq_false_iff_ne]
      intro heq
      apply h
      have := congrArg BitVec.toNat heq
      simp only [BitVec.toNat_ofNat] at this
      rw [Nat.mod_eq_of_lt ha, Nat.mod_eq_of_lt hb] at this
      exact this
    simp [hne, h]

/-- The comparison of a small number with the zero word. -/
theorem cmpi_eq_zero (n : ℕ) (hn : n < 2 ^ 32) :
    IntOp.cmpi .eq (BitVec.ofNat 32 n) 0#32 = if n = 0 then 1#1 else 0#1 := by
  unfold IntOp.cmpi
  by_cases h : n = 0
  · subst h; simp
  · have hne : (BitVec.ofNat 32 n == 0#32) = false := by
      rw [beq_eq_false_iff_ne]
      intro heq
      apply h
      have := congrArg BitVec.toNat heq
      simp only [BitVec.toNat_ofNat] at this
      rw [Nat.mod_eq_of_lt hn] at this
      exact this
    simp [hne, h]

/-- A select on the conjunction of two such comparisons is the `if` on both numbers being zero. -/
theorem select_corner {α : Type} (r c : ℕ) (hr : r < 2 ^ 32) (hc : c < 2 ^ 32) (A B : α) :
    Scalar.select (IntOp.andi (IntOp.cmpi .eq (BitVec.ofNat 32 r) 0#32) (IntOp.cmpi .eq (BitVec.ofNat 32 c) 0#32)) A B
      = if r = 0 ∧ c = 0 then A else B := by
  rw [cmpi_eq_zero r hr, cmpi_eq_zero c hc]
  unfold Scalar.select IntOp.andi
  by_cases h1 : r = 0 <;> by_cases h2 : c = 0 <;> simp [h1, h2]

/-! ## The keepdims forms -/

/-- A per-row value `[4096]`, viewed as a column and broadcast along the lanes, reads at `(q, j)` the value of row `q`. -/
theorem colBcast_apply {α : Type} (v : S4096.Idx → α) (q : Fin 4096) (j : Fin 128) :
    broadcastTo S4096x128 (shapeCast S4096x1 v shapeCasts_S4096_S4096x1) broadcasts_S4096x1_S4096x128 (ix2 q j) = v (ix1 q) :=
  (broadcastTo_a1_ab_apply _ _ q j).trans (shapeCast_a_a1_apply v _ q 0)

/-! ## The payloads at an index -/

/-- Row `q` of the block of logits. -/
abbrev logitsRow (x1 : Vec Ideal S4096x128 .f32) (q : Fin 4096) : Fin 128 → EReal := fun j => x1 (ix2 q j)

/-- The shifted logits. -/
theorem pay3_apply (x1 : Vec Ideal S4096x128 .f32) (q : Fin 4096) (j : Fin 128) :
    k0_pay3 (F := Ideal) x1 (ix2 q j) = Cert.Spec.kShift (logitsRow x1 q) j := by
  unfold Cert.Spec.kShift
  show x1 (ix2 q j) - _ = x1 (ix2 q j) - _
  refine congrArg (x1 (ix2 q j) - ·) ?_
  refine (colBcast_apply _ q j).trans ?_
  exact rowMax_apply x1 _ _ _ q

/-- Their exponentials. -/
theorem pay4_apply (x1 : Vec Ideal S4096x128 .f32) (q : Fin 4096) (j : Fin 128) :
    k0_pay4 (F := Ideal) x1 (ix2 q j) = Cert.Spec.kExp (logitsRow x1 q) j :=
  congrArg Ideal.exp (pay3_apply x1 q j)

/-- The row sums of the exponentials, as a column. -/
theorem pay5_apply (x1 : Vec Ideal S4096x128 .f32) (q : Fin 4096) (u : Fin 1) :
    k0_pay5 (F := Ideal) x1 (ix2 q u) = Cert.Spec.kSum (logitsRow x1 q) := by
  unfold Cert.Spec.kSum
  show shapeCast S4096x1 (multiReduction .add [1] S4096 (k0_pay4 (F := Ideal) x1) 0x00000000#32 reduces_S4096x128_S4096 (.inl rfl) rfl)
    shapeCasts_S4096_S4096x1 (ix2 q u) = _
  refine (shapeCast_a_a1_apply _ _ q u).trans ?_
  refine (rowSum_apply (k0_pay4 x1) _ _ _ q).trans ?_
  exact Finset.sum_congr rfl fun k _ => pay4_apply x1 q k

/-- The probabilities. -/
theorem pay6_apply (x1 : Vec Ideal S4096x128 .f32) (q : Fin 4096) (j : Fin 128) :
    k0_pay6 (F := Ideal) x1 (ix2 q j) = Cert.Spec.kProb (logitsRow x1 q) j := by
  unfold Cert.Spec.kProb
  show k0_pay4 (F := Ideal) x1 (ix2 q j) * _ = _
  rw [pay4_apply]
  refine congrArg (Cert.Spec.kExp (logitsRow x1 q) j * ·) ?_
  refine (broadcastTo_a1_ab_apply _ _ q j).trans ?_
  show Ideal.div Cert.Spec.one (k0_pay5 (F := Ideal) x1 (ix2 q (0 : Fin 1))) = _
  rw [pay5_apply]

/-- The one-hot row of the target class. -/
theorem pay7_apply (x0 : Vec Ideal S4096x1 .i32) (tq : Fin 4096 → Fin 128)
    (ht : ∀ q : Fin 4096, x0 (ix2 q (0 : Fin 1)) = BitVec.ofNat 32 (tq q).val) (q : Fin 4096) (j : Fin 128) :
    k0_pay7 (F := Ideal) x0 (ix2 q j) = Cert.Spec.oh (tq q) j := by
  have hi : iota .tc S4096x128 32 [1] iota_S4096x128_d1_w32 (ix2 q j) = BitVec.ofNat 32 j.val :=
    iota_single_apply .tc S4096x128 32 1 iota_S4096x128_d1_w32 (ix2 q j)
  have hb : broadcastTo S4096x128 (shapeCast S4096x1 x0 shapeCasts_S4096x1_S4096x1) broadcasts_S4096x1_S4096x128 (ix2 q j)
      = BitVec.ofNat 32 (tq q).val := by
    refine (broadcastTo_a1_ab_apply _ _ q j).trans ?_
    rw [shapeCast_self]
    exact ht q
  show ((((IntOp.cmpi .eq (iota .tc S4096x128 32 [1] iota_S4096x128_d1_w32 (ix2 q j))
      (broadcastTo S4096x128 (shapeCast S4096x1 x0 shapeCasts_S4096x1_S4096x1) broadcasts_S4096x1_S4096x128 (ix2 q j))).setWidth 32).toInt : ℝ) : EReal) = _
  rw [hi, hb, oneHot_word j.val (tq q).val (by have := j.isLt; omega) (by have := (tq q).isLt; omega)]
  unfold Cert.Spec.oh
  by_cases h : j = tq q
  · rw [if_pos h, if_pos (congrArg Fin.val h)]
  · rw [if_neg h, if_neg (fun hv => h (Fin.ext hv))]

/-- Focal weight times log-probability. -/
theorem fl_apply (x1 : Vec Ideal S4096x128 .f32) (q : Fin 4096) (j : Fin 128) :
    ((Cert.Spec.one - k0_pay6 (F := Ideal) x1 (ix2 q j)) * (Cert.Spec.one - k0_pay6 (F := Ideal) x1 (ix2 q j)))
      * (k0_pay3 (F := Ideal) x1 (ix2 q j)
          - broadcastTo S4096x128 (log (k0_pay5 (F := Ideal) x1)) broadcasts_S4096x1_S4096x128 (ix2 q j))
      = Cert.Spec.kFl (logitsRow x1 q) j := by
  unfold Cert.Spec.kFl Cert.Spec.kLogp
  rw [pay6_apply, pay3_apply]
  show Cert.Spec.kFocal (logitsRow x1 q) j * (Cert.Spec.kShift (logitsRow x1 q) j - _) = _
  refine congrArg (fun t => Cert.Spec.kFocal (logitsRow x1 q) j * (Cert.Spec.kShift (logitsRow x1 q) j - t)) ?_
  refine (broadcastTo_a1_ab_apply _ _ q j).trans ?_
  show Ideal.log (k0_pay5 (F := Ideal) x1 (ix2 q (0 : Fin 1))) = _
  rw [pay5_apply]

/-- The base loss of each row, as a column. -/
theorem pay8_apply (x0 : Vec Ideal S4096x1 .i32) (x1 : Vec Ideal S4096x128 .f32) (tq : Fin 4096 → Fin 128)
    (ht : ∀ q : Fin 4096, x0 (ix2 q (0 : Fin 1)) = BitVec.ofNat 32 (tq q).val) (q : Fin 4096) (u : Fin 1) :
    k0_pay8 (F := Ideal) x1 x0 (ix2 q u)
      = Cert.Spec.zero - (Cert.Spec.c9 * (∑ j : Fin 128, Cert.Spec.oh (tq q) j * Cert.Spec.kFl (logitsRow x1 q) j)
          + Cert.Spec.cS * (∑ j : Fin 128, Cert.Spec.kFl (logitsRow x1 q) j)) := by
  show Cert.Spec.zero - (Cert.Spec.c9 * _ + Cert.Spec.cS * _) = _
  congr 3
  · refine (shapeCast_a_a1_apply _ _ q u).trans ?_
    refine (rowSum_apply _ _ _ _ q).trans ?_
    refine Finset.sum_congr rfl fun k _ => ?_
    show k0_pay7 (F := Ideal) x0 (ix2 q k) * _ = _
    rw [pay7_apply x0 tq ht]
    exact congrArg (Cert.Spec.oh (tq q) k * ·) (fl_apply x1 q k)
  · refine (shapeCast_a_a1_apply _ _ q u).trans ?_
    refine (rowSum_apply _ _ _ _ q).trans ?_
    exact Finset.sum_congr rfl fun k _ => fl_apply x1 q k

/-! ## The column of row losses, and the stored block -/

/-- The `[4096, 1]` column the body totals — the base loss times the class weight, plus the confusion penalty — reads at
    row `q` the kernel's row loss. -/
theorem colTotal_apply (x0 : Vec Ideal S4096x1 .i32) (x1 : FVec Ideal S4096x128 .f32) (x2 : FVec Ideal S1x128 .f32)
    (x3 : FVec Ideal S128x128 .f32) (tq : Fin 4096 → Fin 128)
    (ht : ∀ q : Fin 4096, x0 (ix2 q (0 : Fin 1)) = BitVec.ofNat 32 (tq q).val) (q : Fin 4096) (u : Fin 1) :
    addf (F := Ideal)
        (mulf (k0_pay8 (F := Ideal) x1 x0)
          (shapeCast S4096x1
            (multiReduction .add [1] S4096
              (mulf (k0_pay7 (F := Ideal) x0)
                (broadcastTo S4096x128 (shapeCast S1x128 x2 shapeCasts_S1x128_S1x128) broadcasts_S1x128_S4096x128))
              0x00000000#32 reduces_S4096x128_S4096 (.inl rfl) rfl)
            shapeCasts_S4096_S4096x1))
        (shapeCast S4096x1
          (multiReduction .add [1] S4096
            (mulf
              (matmul dot_S4096x128_S128x128_S4096x128_1_0_0_1_n_n none (k0_pay7 (F := Ideal) x0)
                (shapeCast S128x128 x3 shapeCasts_S128x128_S128x128) (constant (F := Ideal) S4096x128 .f32 0x00000000#32))
              (k0_pay6 (F := Ideal) x1))
            0x00000000#32 reduces_S4096x128_S4096 (.inl rfl) rfl)
          shapeCasts_S4096_S4096x1)
        (ix2 q u)
      = Cert.Spec.kRow (fun j : Fin 128 => x1 (ix2 q j)) (tq q) (fun j : Fin 128 => x2 (ix2 (0 : Fin 1) j))
          (fun a j : Fin 128 => x3 (ix2 a j)) := by
  unfold Cert.Spec.kRow
  show k0_pay8 (F := Ideal) x1 x0 (ix2 q u) * _ + _ = _
  rw [pay8_apply x0 x1 tq ht]
  refine congrArg₂ (· + ·) (congrArg (HMul.hMul _) ?_) ?_
  · refine (shapeCast_a_a1_apply _ _ q u).trans ?_
    refine (rowSum_apply _ _ _ _ q).trans ?_
    refine Finset.sum_congr rfl fun k _ => ?_
    show k0_pay7 (F := Ideal) x0 (ix2 q k) * _ = _
    rw [pay7_apply x0 tq ht]
    refine congrArg (Cert.Spec.oh (tq q) k * ·) ?_
    refine (broadcastTo_1b_ab_apply _ _ q k).trans ?_
    rw [shapeCast_self]
  · refine (shapeCast_a_a1_apply _ _ q u).trans ?_
    refine (rowSum_apply _ _ _ _ q).trans ?_
    refine Finset.sum_congr rfl fun k _ => ?_
    show matmul dot_S4096x128_S128x128_S4096x128_1_0_0_1_n_n none (k0_pay7 (F := Ideal) x0)
        (shapeCast S128x128 x3 shapeCasts_S128x128_S128x128) (constant (F := Ideal) S4096x128 .f32 0x00000000#32) (ix2 q k)
      * k0_pay6 (F := Ideal) x1 (ix2 q k) = _
    rw [pay6_apply, matmul_apply_ix]
    refine congrArg (· * Cert.Spec.kProb (logitsRow x1 q) k) ?_
    refine Finset.sum_congr rfl fun a _ => ?_
    rw [pay7_apply x0 tq ht, shapeCast_self]

/-- The store's tail over any column `V`: the previous contents plus, at the corner only, the column's total. -/
theorem tail_apply (V : FVec Ideal S4096x1 .f32) (prev : FVec Ideal S8x128 .f32) (r : Fin 8) (c : Fin 128) :
    addf (F := Ideal) (shapeCast S8x128 prev shapeCasts_S8x128_S8x128)
        (select
          (andi (cmpi .eq (iota .tc S8x128 32 [0] iota_S8x128_d0_w32) (broadcast S8x128 0#32))
            (cmpi .eq (iota .tc S8x128 32 [1] iota_S8x128_d1_w32) (broadcast S8x128 0#32)))
          (broadcastTo S8x128
            (shapeCast S1x1
              (shapeCast S1x1 (multiReduction .add [0] S1 V 0x00000000#32 reduces_S4096x1_S1 (.inl rfl) rfl) shapeCasts_S1_S1x1)
              shapeCasts_S1x1_S1x1)
            broadcasts_S1x1_S8x128)
          (broadcast S8x128 (Scalar.ofBits (F := Ideal) .f32 0x00000000#32)))
        (ix2 r c)
      = prev (ix2 r c) + (if r.val = 0 ∧ c.val = 0 then ∑ q : Fin 4096, V (ix2 q (0 : Fin 1)) else Cert.Spec.zero) := by
  have hi0 : iota .tc S8x128 32 [0] iota_S8x128_d0_w32 (ix2 r c) = BitVec.ofNat 32 r.val :=
    iota_single_apply .tc S8x128 32 0 iota_S8x128_d0_w32 (ix2 r c)
  have hi1 : iota .tc S8x128 32 [1] iota_S8x128_d1_w32 (ix2 r c) = BitVec.ofNat 32 c.val :=
    iota_single_apply .tc S8x128 32 1 iota_S8x128_d1_w32 (ix2 r c)
  have hv : broadcastTo S8x128
      (shapeCast S1x1
        (shapeCast S1x1 (multiReduction .add [0] S1 V 0x00000000#32 reduces_S4096x1_S1 (.inl rfl) rfl) shapeCasts_S1_S1x1)
        shapeCasts_S1x1_S1x1)
      broadcasts_S1x1_S8x128 (ix2 r c) = ∑ q : Fin 4096, V (ix2 q (0 : Fin 1)) := by
    refine (broadcastTo_11_ab_apply _ _ r c).trans ?_
    rw [shapeCast_self]
    refine (shapeCast_a_1a_apply _ _ (0 : Fin 1) (0 : Fin 1)).trans ?_
    exact colSum_apply V _ _ _ (0 : Fin 1)
  show shapeCast S8x128 prev shapeCasts_S8x128_S8x128 (ix2 r c)
      + Scalar.select
          (IntOp.andi (IntOp.cmpi .eq (iota .tc S8x128 32 [0] iota_S8x128_d0_w32 (ix2 r c)) 0#32)
            (IntOp.cmpi .eq (iota .tc S8x128 32 [1] iota_S8x128_d1_w32 (ix2 r c)) 0#32))
          (broadcastTo S8x128
            (shapeCast S1x1
              (shapeCast S1x1 (multiReduction .add [0] S1 V 0x00000000#32 reduces_S4096x1_S1 (.inl rfl) rfl) shapeCasts_S1_S1x1)
              shapeCasts_S1x1_S1x1)
            broadcasts_S1x1_S8x128 (ix2 r c))
          Cert.Spec.zero = _
  rw [hi0, hi1, hv, shapeCast_self,
    select_corner r.val c.val (by have := r.isLt; omega) (by have := c.isLt; omega)]

/-- The stored block at entry `(r, c)`, for a block of targets that are classes `tq q < 128`. -/
theorem stored_apply (x0 : Vec Ideal S4096x1 .i32) (x1 : Vec Ideal S4096x128 .f32) (x2 : Vec Ideal S1x128 .f32)
    (x3 : Vec Ideal S128x128 .f32) (prev : Vec Ideal S8x128 .f32)
    (tq : Fin 4096 → Fin 128) (ht : ∀ q : Fin 4096, x0 (ix2 q (0 : Fin 1)) = BitVec.ofNat 32 (tq q).val)
    (r : Fin 8) (c : Fin 128) :
    k0_pay1 (F := Ideal) (k0_pay6 x1) (k0_pay7 x0) (k0_pay8 x1 x0) x2 x3 prev (ix2 r c)
      = prev (ix2 r c)
        + (if r.val = 0 ∧ c.val = 0 then
            ∑ q : Fin 4096, Cert.Spec.kRow (fun j : Fin 128 => x1 (ix2 q j)) (tq q)
              (fun j : Fin 128 => x2 (ix2 (0 : Fin 1) j)) (fun a j : Fin 128 => x3 (ix2 a j))
           else Cert.Spec.zero) := by
  refine (tail_apply _ prev r c).trans ?_
  refine congrArg (prev (ix2 r c) + ·) ?_
  by_cases h : r.val = 0 ∧ c.val = 0
  · rw [if_pos h, if_pos h]
    exact Finset.sum_congr rfl fun q _ => colTotal_apply x0 x1 x2 x3 tq ht q (0 : Fin 1)
  · rw [if_neg h, if_neg h]

end Cert.KernelIdeal.RowValue

end
-- ==== Proof.KernelBlocks.lean ====
/-
  What the idealized kernel's windows read at a grid point, entry by entry, in terms of the program's arguments:
  block `t` of the logits is rows `4096·t … 4096·t + 4095`; block `t` of the targets (the host's reshape of the
  target vector to a column) is the same rows of the vector; the class-weight row (the host's reshape of the weight
  vector) and the excess-penalty matrix (five host operations on the penalty matrix) are read whole at every point.
-/
import proofs.«405945_j2808908611737_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- A row of a block is a row of the array. -/
theorem row_lt (t : Fin cfg0.N) (q : Fin 4096) : 4096 * t.val + q.val < 1048576 := by
  have ht : t.val < 256 := lt_of_lt_of_eq t.isLt N_0
  have hq := q.isLt
  omega

/-- The block indices of the four input windows at grid point `t = 128·p + k`: the logits' and the targets' index
    maps return `(128·p + k, 0) = (t, 0)`, the class weights' and the excess matrix's return `(0, 0)`, at each of
    the 256 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The excess-penalty matrix as the program's host operations compute it from the penalty matrix:
    `max (P - 1) 0 · (1 - [row = column])`. -/
def excess (P : FVec F S128x128 .f32) : FVec F S128x128 .f32 :=
  mulf
    (maximumf (subf P (broadcastInDim S128x128 ![] Facts₀.bcast_S_S128x128 (constant S_ .f32 0x3F800000#32)))
      (broadcastInDim S128x128 ![] Facts₀.bcast_S_S128x128 (constant S_ .f32 0x00000000#32)))
    (subf (broadcastInDim S128x128 ![] Facts₀.bcast_S_S128x128 (constant S_ .f32 0x3F800000#32))
      (uitofp .f32 (cmpi .eq
        (addi (iotaInDim S128x128 32 0) (broadcastInDim S128x128 ![] Facts₀.bcast_S_S128x128 (constantI S_ 32 0#32)))
        (iotaInDim S128x128 32 1))))

/-! ## The logits: an argument no host operation writes -/

/-- Block `t` of the logits, at row `q` and class `j`: the element of a block sits at block index × block size plus
    its coordinate inside the block, on each axis; here `(t·4096 + q, 0·128 + j)`. -/
theorem logits_block (c : Dev nD) (t : Fin cfg0.N) (q : Fin 4096) (j : Fin 128) :
    (iblk m c 1 t : Vec F S4096x128 .f32) (ix2 q j)
      = m ((c : Thread nD τ).loc main_arg0) (ix2 (⟨4096 * t.val + q.val, row_lt t q⟩ : Fin 1048576) j) := by
  obtain ⟨-, -, e0, e1, -⟩ := idx_facts t
  unfold iblk
  rw [View.read_apply]
  show V m c main_arg0 (((cfg0.win 1).blk t).view.emb (ix2 q j)) = _
  rw [V_main_arg0]
  refine congrArg _ ?_
  funext a
  apply Fin.ext
  match a with
  | ⟨0, _⟩ => show win0_1.index t 0 * 4096 + 1 * q.val = 4096 * t.val + q.val; rw [e0]; omega
  | ⟨1, _⟩ => show win0_1.index t 1 * 128 + 1 * j.val = j.val; rw [e1]; omega

/-! ## The targets: the target vector reshaped to a column -/

/-- The targets as the region finds them: the first host operation's result, the target vector cast to `[N, 1]`; no
    later host operation writes it. -/
theorem V_targets (c : Dev nD) :
    (V m c main_v0 : S1048576x1.Idx → Elt F .i32)
      = shapeCast S1048576x1 (m ((c : Thread nD τ).loc main_arg1)) Facts₀.shapeCasts_S1048576_S1048576x1 := by
  show StableHlo.after hostOps0 (fun b => m (c, b)) (Proc.devRef .tc main_v0) = _
  after_results
  rfl

/-- A vector cast to a column reads, at `(r, u)`, the vector at `r`: the row-major position of `(r, u)` in `[a, 1]`
    is `r · 1 + u = r`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Block `t` of the targets, at row `q`: the column at `(t·4096 + q, 0)`, which is the vector at `4096·t + q`. -/
theorem targets_block (c : Dev nD) (t : Fin cfg0.N) (q : Fin 4096) :
    (iblk m c 0 t : Vec F S4096x1 .i32) (ix2 q (0 : Fin 1))
      = m ((c : Thread nD τ).loc main_arg1) (ix1 (⟨4096 * t.val + q.val, row_lt t q⟩ : Fin 1048576)) := by
  obtain ⟨e0, e1, -⟩ := idx_facts t
  unfold iblk
  rw [View.read_apply]
  show V m c main_v0 (((cfg0.win 0).blk t).view.emb (ix2 q (0 : Fin 1))) = _
  rw [V_targets]
  refine Eq.trans (congrArg _ ?_) (shapeCast_a_a1_apply (m ((c : Thread nD τ).loc main_arg1))
    Facts₀.shapeCasts_S1048576_S1048576x1 (⟨4096 * t.val + q.val, row_lt t q⟩ : Fin 1048576) (0 : Fin 1))
  funext a
  apply Fin.ext
  match a with
  | ⟨0, _⟩ => show win0_0.index t 0 * 4096 + 1 * q.val = 4096 * t.val + q.val; rw [e0]; omega
  | ⟨1, _⟩ => show win0_0.index t 1 * 1 + 1 * 0 = 0; rw [e1]

/-! ## The class weights: the weight vector reshaped to a row -/

/-- The class weights as the region finds them: the second host operation's result, the weight vector cast to
    `[1, 128]`; no later host operation writes it. -/
theorem V_weights (c : Dev nD) :
    (V m c main_v1 : S1x128.Idx → Elt F .f32)
      = shapeCast S1x128 (m ((c : Thread nD τ).loc main_arg2)) Facts₀.shapeCasts_S128_S1x128 := by
  show StableHlo.after hostOps0 (fun b => m (c, b)) (Proc.devRef .tc main_v1) = _
  after_results
  rfl

/-- The class-weight row, at class `j`: its window's block index is `(0, 0)` at every point, so the block is the
    whole row, and the row at `(0, j)` is the vector at `j`. -/
theorem weights_block (c : Dev nD) (t : Fin cfg0.N) (j : Fin 128) :
    (iblk m c 2 t : Vec F S1x128 .f32) (ix2 (0 : Fin 1) j) = m ((c : Thread nD τ).loc main_arg2) (ix1 j) := by
  obtain ⟨-, -, -, -, e0, e1, -⟩ := idx_facts t
  unfold iblk
  rw [View.read_apply]
  show V m c main_v1 (((cfg0.win 2).blk t).view.emb (ix2 (0 : Fin 1) j)) = _
  rw [V_weights]
  refine Eq.trans (congrArg _ ?_) (shapeCast_a_1a_apply (m ((c : Thread nD τ).loc main_arg2))
    Facts₀.shapeCasts_S128_S1x128 (0 : Fin 1) j)
  funext a
  apply Fin.ext
  match a with
  | ⟨0, _⟩ => show win0_2.index t 0 * 1 + 1 * 0 = 0; rw [e0]
  | ⟨1, _⟩ => show win0_2.index t 1 * 128 + 1 * j.val = j.val; rw [e1]; omega

/-! ## The excess-penalty matrix: host operations on the penalty matrix -/

/-- The excess-penalty matrix as the region finds it: the last host operation's result, the product of
    `max (P - 1) 0` (operations 3 to 8 of the 19) and `1 - [row = column]` (operations 9 to 18), `P` the penalty
    matrix as launched. -/
theorem V_excess (c : Dev nD) :
    (V m c main_v14 : S128x128.Idx → Elt F .f32) = excess (m ((c : Thread nD τ).loc main_arg3)) := by
  show StableHlo.after hostOps0 (fun b => m (c, b)) (Proc.devRef .tc main_v14) = _
  after_results
  rfl

/-- The excess-penalty matrix, at `(a, j)`: its window's block index is `(0, 0)` at every point, so the block is the
    whole matrix. -/
theorem excess_block (c : Dev nD) (t : Fin cfg0.N) (a j : Fin 128) :
    (iblk m c 3 t : Vec F S128x128 .f32) (ix2 a j) = excess (m ((c : Thread nD τ).loc main_arg3)) (ix2 a j) := by
  obtain ⟨-, -, -, -, -, -, e0, e1⟩ := idx_facts t
  unfold iblk
  rw [View.read_apply]
  show V m c main_v14 (((cfg0.win 3).blk t).view.emb (ix2 a j)) = _
  rw [V_excess]
  refine congrArg _ ?_
  funext b
  apply Fin.ext
  match b with
  | ⟨0, _⟩ => show win0_3.index t 0 * 128 + 1 * a.val = a.val; rw [e0]; omega
  | ⟨1, _⟩ => show win0_3.index t 1 * 128 + 1 * j.val = j.val; rw [e1]; omega

end Cert.KernelIdeal.Blocks

end
-- ==== Proof.KernelAcc.lean ====
/-
  The output array of the idealized kernel after its 256 grid points.  Point `n` adds, at entry (0, 0) of its core's
  8 × 128 block and nowhere else, the loss of block `n` of 4096 rows; the first point of a core's run of 128 starts from
  the zero block, and the last one writes the block back.  So row `8p`, column 0 of the [16, 128] output ends at
  `0 + Σ_{s < 128} (loss of block 128·p + s)`, and every other entry at a sum of zeros.
-/
import proofs.«405945_j2808908611737_3_alg».proof.Proof.KernelPieces
import proofs.«405945_j2808908611737_3_alg».proof.Proof.KernelRow
import proofs.«405945_j2808908611737_3_alg».proof.Proof.KernelBlocks
import proofs.«405945_j2808908611737_3_alg».proof.Proof.Spec
import Idealize.ShloMosaic.Lib.Pipeline.Value
import Idealize.ShloMosaic.Lib.ValueIdx

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Blocks

variable (m : (ℓ : Loc nD τ sig) → Buf (Elt Ideal) ℓ)
-- the class of each row's target
variable (tn : Fin 1048576 → Fin 128)

/-- The point's input blocks, each at its literal type. -/
abbrev tblk (c : Dev nD) (t : Fin cfg0.N) : Vec Ideal S4096x1 .i32 := iblk m c 0 t
abbrev xblk (c : Dev nD) (t : Fin cfg0.N) : Vec Ideal S4096x128 .f32 := iblk m c 1 t
abbrev wblk (c : Dev nD) (t : Fin cfg0.N) : Vec Ideal S1x128 .f32 := iblk m c 2 t
abbrev eblk (c : Dev nD) (t : Fin cfg0.N) : Vec Ideal S128x128 .f32 := iblk m c 3 t

/-- The loss of block `n`: the sum over its 4096 rows of the row loss, in the kernel's spelling. -/
def blockLoss (c : Dev nD) (n : ℕ) : EReal :=
  if h : n < 256 then
    ∑ q : Fin 4096, Cert.Spec.kRow
      (fun j : Fin 128 => m ((c : Thread nD τ).loc main_arg0) (ix2 (⟨4096 * n + q.val, by have := q.isLt; omega⟩ : Fin 1048576) j))
      (tn ⟨4096 * n + q.val, by have := q.isLt; omega⟩)
      (fun j : Fin 128 => m ((c : Thread nD τ).loc main_arg2) (ix1 j))
      (fun a j : Fin 128 => excess (F := Ideal) (m ((c : Thread nD τ).loc main_arg3)) (ix2 a j))
  else 0

/-- What point `n` adds to its core's block at row `r`, column `cc`: the block's loss at (0, 0), zero elsewhere. -/
def deltaN (c : Dev nD) (n r cc : ℕ) : EReal :=
  if r = 0 ∧ cc = 0 then blockLoss m tn c n else Cert.Spec.zero

/-- The same at an index of the block. -/
def delta (c : Dev nD) (n : ℕ) (i : S8x128.Idx) : EReal := deltaN m tn c n (i 0).val (i 1).val

/-- The block the body's last store writes at point `t`: the previous contents plus the point's addend. -/
theorem stored_at (c : Dev nD)
    (hcls : ∀ i : Fin 1048576, m ((c : Thread nD τ).loc main_arg1) (ix1 i) = BitVec.ofNat 32 (tn i).val)
    (t : Fin cfg0.N) (prev : Vec Ideal S8x128 .f32) (i : S8x128.Idx) :
    stored (tblk m c t) (xblk m c t) (wblk m c t) (eblk m c t) prev i = prev i + delta m tn c t.val i := by
  obtain ⟨r, cc, rfl⟩ : ∃ (r : Fin 8) (cc : Fin 128), i = ix2 r cc := ⟨i 0, i 1, eq_ix2 i⟩
  have hN : t.val < 256 := lt_of_lt_of_eq t.isLt N_0
  unfold stored
  refine (Cert.KernelIdeal.RowValue.stored_apply (tblk m c t) (xblk m c t) (wblk m c t) (eblk m c t) prev
    (fun q => tn ⟨4096 * t.val + q.val, row_lt t q⟩)
    (fun q => (targets_block m c t q).trans (hcls _)) r cc).trans ?_
  unfold delta deltaN blockLoss
  rw [dif_pos hN]
  refine congrArg (prev (ix2 r cc) + ·) ?_
  refine if_congr Iff.rfl (Finset.sum_congr rfl fun q _ => ?_) rfl
  have e1 : (fun j : Fin 128 => xblk m c t (ix2 q j))
      = fun j : Fin 128 => m ((c : Thread nD τ).loc main_arg0) (ix2 (⟨4096 * t.val + q.val, row_lt t q⟩ : Fin 1048576) j) :=
    funext fun j => logits_block m c t q j
  have e2 : (fun j : Fin 128 => wblk m c t (ix2 (0 : Fin 1) j)) = fun j : Fin 128 => m ((c : Thread nD τ).loc main_arg2) (ix1 j) :=
    funext fun j => weights_block m c t j
  have e3 : (fun a j : Fin 128 => eblk m c t (ix2 a j)) = fun a j : Fin 128 => excess (F := Ideal) (m ((c : Thread nD τ).loc main_arg3)) (ix2 a j) :=
    funext fun a => funext fun j => excess_block m c t a j
  rw [e1, e2, e3]

/-- At a point that resets, the staging block holds the payload over the zero block. -/
theorem outs_reset (c : Dev nD) (n : ℕ) (h : n < cfg0.N) (h0 : n % 128 = 0) :
    outsAt0 m c n h = stored (tblk m c ⟨n, h⟩) (xblk m c ⟨n, h⟩) (wblk m c ⟨n, h⟩) (eblk m c ⟨n, h⟩) (k0_pay2 (F := Ideal)) :=
  (outsAt0_A m c ⟨n, h⟩ h0).trans
    (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) (ms0_4 ⟨n, h⟩) (hs0_4 ⟨n, h⟩) ((hcond0_0 ⟨n, h⟩).mpr h0)
      (tblk m c ⟨n, h⟩) (xblk m c ⟨n, h⟩) (wblk m c ⟨n, h⟩) (eblk m c ⟨n, h⟩))

/-- At any other point it holds the payload over what the point before left. -/
theorem outs_step (c : Dev nD) (n : ℕ) (h : n + 1 < cfg0.N) (h0 : ¬(n + 1) % 128 = 0) :
    outsAt0 m c (n + 1) h
      = stored (tblk m c ⟨n + 1, h⟩) (xblk m c ⟨n + 1, h⟩) (wblk m c ⟨n + 1, h⟩) (eblk m c ⟨n + 1, h⟩)
          (outsAt0 m c n (Nat.lt_of_succ_lt h)) :=
  (outsAt0_B m c ⟨n + 1, h⟩ h0).trans
    (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hc => h0 ((hcond0_0 ⟨n + 1, h⟩).mp hc))
      (tblk m c ⟨n + 1, h⟩) (xblk m c ⟨n + 1, h⟩) (wblk m c ⟨n + 1, h⟩) (eblk m c ⟨n + 1, h⟩)
      (outsAt0 m c n (Nat.lt_of_succ_lt h)))

/-- The zero block the reset stores reads the literal zero everywhere. -/
theorem zero_block_apply (i : S8x128.Idx) : (k0_pay2 (F := Ideal)) i = Cert.Spec.zero := rfl

/-- AFTER THE LAST POINT OF A RUN: the staging block of core `p` holds, entry by entry, zero plus the sum of the 128
    points' addends. -/
theorem outs_last (c : Dev nD)
    (hcls : ∀ i : Fin 1048576, m ((c : Thread nD τ).loc main_arg1) (ix1 i) = BitVec.ofNat 32 (tn i).val)
    (t : Fin cfg0.N) (ht : t.val % 128 = 127) :
    outsAt0 m c t.val t.isLt
      = fun i => Cert.Spec.zero + ∑ s ∈ Finset.range 128, delta m tn c (128 * (t.val / 128) + s) i := by
  have hN : cfg0.N = 256 := N_0
  have hlt : t.val < 256 := lt_of_lt_of_eq t.isLt hN
  have h' : 128 * (t.val / 128) + t.val % 128 < cfg0.N := by rw [Nat.div_add_mod]; exact t.isLt
  have hfold := Idealize.ShloMosaic.Pipeline.eq_accAt_of_mod (N := cfg0.N) (fun n h => outsAt0 m c n h) 128
    (fun n h => stored (tblk m c ⟨n, h⟩) (xblk m c ⟨n, h⟩) (wblk m c ⟨n, h⟩) (eblk m c ⟨n, h⟩) (k0_pay2 (F := Ideal)))
    (fun n h acc => stored (tblk m c ⟨n, h⟩) (xblk m c ⟨n, h⟩) (wblk m c ⟨n, h⟩) (eblk m c ⟨n, h⟩) acc)
    (fun n h h0 => outs_reset m c n h h0) (fun n h h0 => outs_step m c n h h0) (by norm_num) t.val t.isLt h'
  rw [hfold]
  funext i
  have hsum := Idealize.ShloMosaic.Pipeline.accAt_add_apply (N := cfg0.N) (ι := S8x128.Idx) (β := EReal)
    (fun n h => stored (tblk m c ⟨n, h⟩) (xblk m c ⟨n, h⟩) (wblk m c ⟨n, h⟩) (eblk m c ⟨n, h⟩) (k0_pay2 (F := Ideal)))
    (fun n h acc => stored (tblk m c ⟨n, h⟩) (xblk m c ⟨n, h⟩) (wblk m c ⟨n, h⟩) (eblk m c ⟨n, h⟩) acc)
    (fun _ => Cert.Spec.zero) (fun n i => delta m tn c n i) (128 * (t.val / 128)) 127
    (fun h i => (stored_at m tn c hcls ⟨_, h⟩ (k0_pay2 (F := Ideal)) i).trans (by rw [zero_block_apply]))
    (fun n h acc i _ _ => stored_at m tn c hcls ⟨n, h⟩ acc i)
    (t.val % 128) (by omega) h' i
  rw [hsum, ht]

/-! ## The output array -/

/-- The output array after the run: row `8p + r`, column `cc` holds zero plus the 128 addends of core `p`'s points at
    `(r, cc)`. -/
def outArr (c : Dev nD) : S16x128.Idx → EReal := fun i =>
  Cert.Spec.zero + ∑ s ∈ Finset.range 128, deltaN m tn c (128 * ((i 0).val / 8) + s) ((i 0).val % 8) (i 1).val

/-- The output window's block index at point `t` is `(t / 128, 0)`: decided over the 256 points. -/
theorem out_index : ∀ t : Fin cfg0.N, win0_4.index t (0 : Fin 2) = t.val / 128 ∧ win0_4.index t (1 : Fin 2) = 0 :=
  (by decide +kernel : ∀ t : Fin grid0.N, win0_4.index t (0 : Fin 2) = t.val / 128 ∧ win0_4.index t (1 : Fin 2) = 0)

/-- What a writing-back point writes is its block of `outArr`. -/
theorem flushed_eq (c : Dev nD)
    (hcls : ∀ i : Fin 1048576, m ((c : Thread nD τ).loc main_arg1) (ix1 i) = BitVec.ofNat 32 (tn i).val)
    (t : Fin cfg0.N) (hf : (cfg0.win 4).flush t = true) :
    (dats m 0 c).flushed 4 t = ((cfg0.win 4).blk t).view.read (Elt Ideal) (outArr m tn c) := by
  have ht : t.val % 128 = 127 := (flush0_4 t).mp hf
  show (cfg0.win 4).cut (grid0.coords t) ((dats m 0 c).after 4 t) = _
  rw [after0_4, outs_last m tn c hcls t ht]
  obtain ⟨e0, e1⟩ := out_index t
  funext j
  show _ = outArr m tn c (((cfg0.win 4).blk t).view.emb j)
  have h0 : ((((cfg0.win 4).blk t).view.emb j) 0).val = win0_4.index t (0 : Fin 2) * 8 + 1 * (j 0).val := rfl
  have h1 : ((((cfg0.win 4).blk t).view.emb j) 1).val = win0_4.index t (1 : Fin 2) * 128 + 1 * (j 1).val := rfl
  have hj0 : (j 0).val < 8 := (j 0).isLt
  have hj1 : (j 1).val < 128 := (j 1).isLt
  unfold outArr delta
  rw [h0, h1, e0, e1]
  have a0 : (t.val / 128 * 8 + 1 * (j 0).val) / 8 = t.val / 128 := by omega
  have a1 : (t.val / 128 * 8 + 1 * (j 0).val) % 8 = (j 0).val := by omega
  have a2 : 0 * 128 + 1 * (j 1).val = (j 1).val := by omega
  rw [a0, a1, a2]

/-- Every entry of the output array lies in the block some writing-back point writes. -/
theorem out_cover (i : S16x128.Idx) :
    ∃ t : Fin cfg0.N, (cfg0.win 4).flush t = true ∧ i ∈ ((cfg0.win 4).blk t).view.set := by
  have hN : cfg0.N = 256 := N_0
  have hi0 : (i 0).val < 16 := (i 0).isLt
  have hi1 : (i 1).val < 128 := (i 1).isLt
  have hlt : 128 * ((i 0).val / 8) + 127 < cfg0.N := by rw [hN]; omega
  refine ⟨⟨128 * ((i 0).val / 8) + 127, hlt⟩, (flush0_4 ⟨128 * ((i 0).val / 8) + 127, hlt⟩).mpr (by show (128 * ((i 0).val / 8) + 127) % 128 = 127; omega), ?_⟩
  obtain ⟨e0, e1⟩ := out_index ⟨128 * ((i 0).val / 8) + 127, hlt⟩
  show i ∈ ((View.whole main_v15).slice (win0_4.rect ⟨128 * ((i 0).val / 8) + 127, hlt⟩)).set
  rw [View.set_slice_whole, Rect.mem_set_unit]
  intro a
  match a with
  | ⟨0, _⟩ =>
    show win0_4.index ⟨128 * ((i 0).val / 8) + 127, hlt⟩ (0 : Fin 2) * 8 ≤ (i 0).val ∧ (i 0).val < win0_4.index ⟨128 * ((i 0).val / 8) + 127, hlt⟩ (0 : Fin 2) * 8 + 8
    rw [e0]; show (128 * ((i 0).val / 8) + 127) / 128 * 8 ≤ (i 0).val ∧ (i 0).val < (128 * ((i 0).val / 8) + 127) / 128 * 8 + 8
    omega
  | ⟨1, _⟩ =>
    show win0_4.index ⟨128 * ((i 0).val / 8) + 127, hlt⟩ (1 : Fin 2) * 128 ≤ (i 1).val ∧ (i 1).val < win0_4.index ⟨128 * ((i 0).val / 8) + 127, hlt⟩ (1 : Fin 2) * 128 + 128
    rw [e1]; omega

/-- So the output array ends at `outArr`. -/
theorem final_out (c : Dev nD)
    (hcls : ∀ i : Fin 1048576, m ((c : Thread nD τ).loc main_arg1) (ix1 i) = BitVec.ofNat 32 (tn i).val) :
    (dats m 0 c).arrAt 4 cfg0.N = outArr m tn c :=
  (dats m 0 c).arrAt_eq_of_cover 4 (outArr m tn c) (fun t hf => flushed_eq m tn c hcls t hf) (out_cover)

/-- Row 0, column 0: core 0's total. -/
theorem outArr_core0 (c : Dev nD) :
    outArr m tn c (ix2 (0 : Fin 16) (0 : Fin 128)) = Cert.Spec.zero + ∑ s ∈ Finset.range 128, blockLoss m tn c s := by
  unfold outArr deltaN
  refine congrArg (Cert.Spec.zero + ·) (Finset.sum_congr rfl fun s _ => ?_)
  show (if (0 : ℕ) % 8 = 0 ∧ (0 : ℕ) = 0 then blockLoss m tn c (128 * (0 / 8) + s) else _) = _
  rw [if_pos ⟨rfl, rfl⟩]
  congr 1; omega

/-- Row 8, column 0: core 1's total. -/
theorem outArr_core1 (c : Dev nD) :
    outArr m tn c (ix2 (8 : Fin 16) (0 : Fin 128)) = Cert.Spec.zero + ∑ s ∈ Finset.range 128, blockLoss m tn c (128 + s) := by
  unfold outArr deltaN
  refine congrArg (Cert.Spec.zero + ·) (Finset.sum_congr rfl fun s _ => ?_)
  show (if (8 : ℕ) % 8 = 0 ∧ (0 : ℕ) = 0 then blockLoss m tn c (128 * (8 / 8) + s) else _) = _
  rw [if_pos ⟨rfl, rfl⟩]

end Cert.KernelIdeal.Acc

end
-- ==== Proof.KernelTail.lean ====
/-
  The idealized kernel program's run, read to its scalar result: the three host operations after the pallas_call take
  entries (0, 0) and (8, 0) of the output array — the two cores' totals —, add them to zero, and divide by 2²⁰.
-/
import proofs.«405945_j2808908611737_3_alg».proof.Proof.KernelAcc
import Idealize.ShloMosaic.Lib.StableHlo.Run

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Acc

variable (m : (ℓ : Loc nD τ sig) → Buf (Elt Ideal) ℓ) (ρ : Dev nD → PrngReg)
variable (tn : Fin 1048576 → Fin 128)

/-- The program's result: the mean of the 256 blocks' losses, the blocks of each core summed from zero in turn. -/
def result (c : Dev nD) : EReal :=
  Ideal.div
    ((Cert.Spec.zero + (Cert.Spec.zero + ∑ s ∈ Finset.range 128, blockLoss m tn c s))
      + (Cert.Spec.zero + ∑ s ∈ Finset.range 128, blockLoss m tn c (128 + s)))
    Cert.Spec.cN

/-- What the host operations after the region leave in the result buffer. -/
theorem tail_value (c : Dev nD)
    (hcls : ∀ i : Fin 1048576, m ((c : Thread nD τ).loc main_arg1) (ix1 i) = BitVec.ofNat 32 (tn i).val) :
    Pipeline.afterTail₀ cfgs (dats m) 0 (V0 m) [hostOps1] c main_v22 = fun _ => result m tn c := by
  unfold Pipeline.afterTail₀
  show StableHlo.after hostOps1 _ (Proc.devRef .tc main_v22) = _
  after_results
  have hA : Pipeline.withArrays (cfgs 0).spec c (V0 m c) (fun w => (dats m 0 c).arrAt w (cfgs 0).N) (Proc.devRef .tc main_v15)
      = outArr m tn c :=
    (Pipeline.withArrays_arr spec0 launch0.win.arr_inj c _ _ 4).trans (final_out m tn c hcls)
  rw [hA]
  funext i
  have r0 : shapeCast S_ (extractStridedSlice S1x1 ![0, 0] (outArr m tn c) slices_S16x128_S1x1_0_0) shapeCasts_S1x1_S_ i
      = outArr m tn c (ix2 (0 : Fin 16) (0 : Fin 128)) :=
    (shapeCast_apply _ shapeCasts_S1x1_S_ i (ix2 (0 : Fin 1) (0 : Fin 1)) rfl).trans
      (extractStridedSlice_apply _ _ slices_S16x128_S1x1_0_0 _ (ix2 (0 : Fin 16) (0 : Fin 128))
        (fun a => by match a with | ⟨0, _⟩ => rfl | ⟨1, _⟩ => rfl))
  have r8 : shapeCast S_ (extractStridedSlice S1x1 ![8, 0] (outArr m tn c) slices_S16x128_S1x1_8_0) shapeCasts_S1x1_S_ i
      = outArr m tn c (ix2 (8 : Fin 16) (0 : Fin 128)) :=
    (shapeCast_apply _ shapeCasts_S1x1_S_ i (ix2 (0 : Fin 1) (0 : Fin 1)) rfl).trans
      (extractStridedSlice_apply _ _ slices_S16x128_S1x1_8_0 _ (ix2 (8 : Fin 16) (0 : Fin 128))
        (fun a => by match a with | ⟨0, _⟩ => rfl | ⟨1, _⟩ => rfl))
  show Ideal.div ((Cert.Spec.zero
      + shapeCast S_ (extractStridedSlice S1x1 ![0, 0] (outArr m tn c) slices_S16x128_S1x1_0_0) shapeCasts_S1x1_S_ i)
      + shapeCast S_ (extractStridedSlice S1x1 ![8, 0] (outArr m tn c) slices_S16x128_S1x1_8_0) shapeCasts_S1x1_S_ i) Cert.Spec.cN = _
  rw [r0, r8, outArr_core0, outArr_core1]
  rfl

/-- THE RUN, READ: every weakly fair execution ends with the result buffer at `result` and the arguments unchanged. -/
theorem run (hcls : ∀ (c : Dev nD) (i : Fin 1048576), m ((c : Thread nD τ).loc main_arg1) (ix1 i) = BitVec.ofNat 32 (tn i).val) :
    θ_run defs (onTc (τ := τ) (main (F := Ideal))) ⟨m, fun _ => 0, ρ⟩ fun r => ∀ c : Dev nD,
      r.2.mem ((c.tc : Thread nD τ).loc main_v22) = (fun _ => result m tn c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v22 (Pipeline.mem_restRefs_of main_v22 (by decide) (by decide))).trans (tail_value m tn c (hcls c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tail

end
-- ==== Proof.LibRangeMul.lean ====
/-
  A sum over the first `m · n` naturals taken `n` at a time, in any commutative additive monoid (the extended reals
  among them): `∑ i < m·n, f i = ∑ a < m, ∑ b < n, f (n·a + b)`.  What regroups a sum over the rows of an array by blocks
  of consecutive rows, without enumerating anything.
-/
import Mathlib.Algebra.BigOperators.Group.Finset.Basic
import Mathlib.Algebra.BigOperators.Intervals

namespace Cert.LibRangeMul

/-- A sum over the first `m · n` naturals, `n` at a time: the `a`-th group is `n · a, …, n · a + (n - 1)`. By induction on
    `m`, splitting the last group off. -/
theorem sum_range_mul {M : Type*} [AddCommMonoid M] (f : ℕ → M) (m n : ℕ) :
    ∑ i ∈ Finset.range (m * n), f i = ∑ a ∈ Finset.range m, ∑ b ∈ Finset.range n, f (n * a + b) := by
  induction m with
  | zero => simp
  | succ m ih => rw [Nat.succ_mul, Finset.sum_range_add, ih, Finset.sum_range_succ, Nat.mul_comm m n]

end Cert.LibRangeMul
-- ==== Proof.PreFacts.lean ====
/-
  What the precondition says, entry by entry: every logit is a real number, and every target is a class below 128.
  And the regrouping of a sum over the 2²⁰ rows by blocks of 4096 rows, the 256 blocks in two halves of 128.
-/
import proofs.«405945_j2808908611737_3_alg».proof.Pre_finite_inputs
import Idealize.ShloMosaic.Lib.ValueIdx
import Idealize.ShloMosaic.Lib.ReduceAll
import Idealize.ShloMosaic.Lib.StableHlo.Predicate
import proofs.«405945_j2808908611737_3_alg».proof.Proof.LibRangeMul
import Mathlib.Data.Fintype.BigOperators
import Mathlib.Algebra.BigOperators.Group.Finset.Basic

noncomputable section

namespace Cert.PreFacts

open Idealize.ShloMosaic Idealize.ShloMosaic.ValueIdx Cert.Pre_finite_inputs

/-! ## One element: what each test says of the number or word it tests -/

/-- The pattern 0x7F800000 denotes +∞: exponent field all ones, fraction zero, sign clear. -/
theorem inf_pattern : Ideal.ofBits .f32 0x7F800000#32 = (⊤ : EReal) := by
  simp [Ideal.ofBits, Ideal.ieee]

/-- An extended real whose absolute value max v (-v) is below +∞ is a real number: at -∞ the negation is +∞,
    at +∞ the number itself is, and neither is below +∞. -/
theorem real_of_abs_lt_top (v : EReal) (h : max v (-v) < (⊤ : EReal)) : ∃ r : ℝ, v = ((r : ℝ) : EReal) := by
  induction v using EReal.rec with
  | bot => exact absurd h (by simp)
  | coe r => exact ⟨r, rfl⟩
  | top => exact absurd h (by simp)

/-- The test |v| < +∞ as the precondition prints it, read at one element. -/
theorem real_of_test (v : EReal)
    (h : Ideal.cmp .olt (max v (-v)) (Ideal.ofBits .f32 0x7F800000#32) = 1#1) : ∃ r : ℝ, v = ((r : ℝ) : EReal) := by
  rw [inf_pattern] at h
  refine real_of_abs_lt_top v ?_
  simpa [Ideal.cmp, StableHlo.Predicate.ofBool_eq_one_iff] using h

/-- A 32-bit word that reads, signed, at least 0 and below 128 is the word of a natural below 128: its top bit is
    clear, so it reads the same signed and unsigned. -/
theorem class_of_range (w : BitVec 32) (h0 : (0#32 : BitVec 32).toInt ≤ w.toInt)
    (h1 : w.toInt < (128#32 : BitVec 32).toInt) : ∃ k : Fin 128, w = BitVec.ofNat 32 k.val := by
  have z0 : (0#32 : BitVec 32).toInt = 0 := by decide
  have z1 : (128#32 : BitVec 32).toInt = 128 := by decide
  rw [z0] at h0
  rw [z1] at h1
  have hs : 2 * w.toNat < 2 ^ 32 := BitVec.toInt_pos_iff.1 h0
  rw [BitVec.toInt_eq_toNat_of_lt hs] at h1
  have hk : w.toNat < 128 := by omega
  refine ⟨⟨w.toNat, hk⟩, BitVec.eq_of_toNat_eq ?_⟩
  rw [BitVec.toNat_ofNat]
  exact (Nat.mod_eq_of_lt (by omega)).symm

/-! ## The precondition, conjunct by conjunct -/

/-- The scalar shape has one index. -/
instance : Subsingleton S_.Idx := ⟨fun a b => funext fun d => d.elim0⟩

variable [Cert.Pre_finite_inputs.Facts]

/-- Under the precondition every logit is a real number. -/
theorem logit_real (x : FVec Ideal S1048576x128 .f32) (t : IVec S1048576 32) (cw : FVec Ideal S128 .f32)
    (P : FVec Ideal S128x128 .f32) (h : Cert.Pre_finite_inputs.fn (F := Ideal) x t cw P = fun _ => 1#1)
    (i : Fin 1048576) (j : Fin 128) : ∃ r : ℝ, x (ix2 i j) = ((r : ℝ) : EReal) := by
  have e := congrFun h ix0
  dsimp only [Cert.Pre_finite_inputs.fn, Cert.Pre_finite_inputs.fn_part1, andi] at e
  simp only [IntOp.andi_eq_one] at e
  obtain ⟨⟨⟨e1, -⟩, -⟩, -⟩ := e
  exact real_of_test (x (ix2 i j)) (Host.reduce_andi_all _ _ _ _ _ e1 (ix2 i j))

/-- Under the precondition every target is a class: the 32-bit word of a natural below 128. -/
theorem target_class (x : FVec Ideal S1048576x128 .f32) (t : IVec S1048576 32) (cw : FVec Ideal S128 .f32)
    (P : FVec Ideal S128x128 .f32) (h : Cert.Pre_finite_inputs.fn (F := Ideal) x t cw P = fun _ => 1#1)
    (i : Fin 1048576) : ∃ k : Fin 128, t (ix1 i) = BitVec.ofNat 32 k.val := by
  have e := congrFun h ix0
  dsimp only [Cert.Pre_finite_inputs.fn, Cert.Pre_finite_inputs.fn_part1, andi] at e
  simp only [IntOp.andi_eq_one] at e
  obtain ⟨-, e4⟩ := e
  have b : IntOp.andi (IntOp.cmpi .sge (t (ix1 i)) 0#32) (IntOp.cmpi .slt (t (ix1 i)) 128#32) = 1#1 :=
    Host.reduce_andi_all _ _ _ _ _ e4 (ix1 i)
  obtain ⟨b0, b1⟩ := IntOp.andi_eq_one.1 b
  exact class_of_range (t (ix1 i)) (IntOp.cmpi_sge.1 b0) (IntOp.cmpi_slt.1 b1)

/-! ## Regrouping sums over an initial segment of the naturals -/

/-- A sum over the 2²⁰ rows, block by block: 256 blocks of 4096 consecutive rows. -/
theorem sum_rows_by_blocks {M : Type*} [AddCommMonoid M] (f : ℕ → M) :
    ∑ i : Fin 1048576, f i.val = ∑ n : Fin 256, ∑ q : Fin 4096, f (4096 * n.val + q.val) := by
  have e : (1048576 : ℕ) = 256 * 4096 := by norm_num
  rw [Fin.sum_univ_eq_sum_range f 1048576, e, Cert.LibRangeMul.sum_range_mul f 256 4096,
    ← Fin.sum_univ_eq_sum_range (fun a => ∑ b ∈ Finset.range 4096, f (4096 * a + b)) 256]
  exact Finset.sum_congr rfl fun n _ => (Fin.sum_univ_eq_sum_range (fun b => f (4096 * n.val + b)) 4096).symm

/-- The 256 blocks in two halves of 128. -/
theorem sum_blocks_two_halves {M : Type*} [AddCommMonoid M] (g : ℕ → M) :
    ∑ n : Fin 256, g n.val = ∑ s ∈ Finset.range 128, g s + ∑ s ∈ Finset.range 128, g (128 + s) := by
  have e : (256 : ℕ) = 128 + 128 := by norm_num
  rw [Fin.sum_univ_eq_sum_range g 256, e, Finset.sum_range_add]

end Cert.PreFacts

end
-- ==== Proof.RowLoss.lean ====
/-
  On a row of REAL logits the two spellings of the row loss (Spec.lean) are one extended real, whatever the class
  weights and the excess penalties are (they may be infinite: each enters through a product with an exact 0 or 1, or
  as the same factor on both sides).

  The road: every intermediate quantity of both spellings (shifted logit, exponential, their sum, log-probability,
  probability, focal weight) is the coercion of ONE real number, named below (`rA`, `rS`, `rLp`, `rP`, `rF`, `rFl`);
  the four places where the spellings differ are then identities of real numbers, or of sums against a one-hot row.
-/
import proofs.«405945_j2808908611737_3_alg».proof.Proof.Spec

noncomputable section

namespace Cert.Spec

open Idealize.ShloMosaic

/-! ## The literals -/

theorem zero_eq : zero = 0 := Ideal.ofBits_zero_f32

theorem one_eq : one = 1 := by
  simp [Ideal.ofBits, Ideal.ieee, -EReal.coe_mul]; norm_num

theorem two_eq : two = ((2 : ℝ) : EReal) := by
  simp [Ideal.ofBits, Ideal.ieee, -EReal.coe_mul]; norm_num

theorem ninf_eq : ninf = ⊥ := by
  simp [Ideal.ofBits, Ideal.ieee]

/-- `0.9` rounded to a float is some real; its value is never needed. -/
theorem c9_real : ∃ r : ℝ, c9 = (r : EReal) := by
  refine ⟨c9.toReal, (EReal.coe_toReal ?_ ?_).symm⟩ <;> simp [Ideal.ofBits, Ideal.ieee, -EReal.coe_mul]

/-- `0.1 / 128` rounded to a float is some real; its value is never needed. -/
theorem cS_real : ∃ r : ℝ, cS = (r : EReal) := by
  refine ⟨cS.toReal, (EReal.coe_toReal ?_ ?_).symm⟩ <;> simp [Ideal.ofBits, Ideal.ieee, -EReal.coe_mul]

/-! ## Finite sums of reals, and sums against the one-hot row -/

/-- The coercion commutes with a finite sum. -/
theorem coe_sum (s : Finset (Fin 128)) (g : Fin 128 → ℝ) :
    (∑ i ∈ s, ((g i : ℝ) : EReal)) = ((∑ i ∈ s, g i : ℝ) : EReal) := by
  induction s using Finset.induction_on with
  | empty => simp
  | insert a s ha ih => rw [Finset.sum_insert ha, Finset.sum_insert ha, ih, EReal.coe_add]

/-- A sum against the one-hot row of `t` picks the entry `t`, of ANY extended reals: `0 · ±∞ = 0`. -/
theorem oh_sum (t : Fin 128) (g : Fin 128 → EReal) : ∑ j : Fin 128, oh t j * g j = g t := by
  rw [Finset.sum_eq_single t]
  · rw [oh, if_pos rfl, one_mul]
  · intro b _ hb; rw [oh, if_neg hb, zero_mul]
  · intro h; exact absurd (Finset.mem_univ t) h

theorem oh_coe (t j : Fin 128) : oh t j = ((if j = t then (1 : ℝ) else 0 : ℝ) : EReal) := by
  unfold oh; split_ifs <;> simp

/-- The reference's smoothed sum, split the way the kernel splits it. -/
theorem smooth_sum (t : Fin 128) (r9 rs : ℝ) (f l : Fin 128 → ℝ) :
    ∑ j : Fin 128, ((f j : ℝ) : EReal) * (oh t j * (r9 : EReal) + (rs : EReal)) * ((l j : ℝ) : EReal)
      = ((r9 * (f t * l t) + rs * ∑ j : Fin 128, f j * l j : ℝ) : EReal) := by
  have h : ∀ j : Fin 128, ((f j : ℝ) : EReal) * (oh t j * (r9 : EReal) + (rs : EReal)) * ((l j : ℝ) : EReal)
      = (((if j = t then r9 * (f j * l j) else 0) + rs * (f j * l j) : ℝ) : EReal) := by
    intro j
    rw [oh_coe, ← EReal.coe_mul, ← EReal.coe_add, ← EReal.coe_mul, ← EReal.coe_mul]
    congr 1
    split_ifs <;> ring
  rw [Finset.sum_congr rfl (fun j _ => h j), coe_sum, Finset.sum_add_distrib, Finset.sum_ite_eq',
    if_pos (Finset.mem_univ t), ← Finset.mul_sum]

/-! ## The row maximum of a real row is a real -/

theorem rowMax_eq (x : Fin 128 → EReal) : rowMax x = (Finset.univ : Finset (Fin 128)).fold max ⊥ x := by
  rw [rowMax, ninf_eq]

/-- The maximum of the real row. -/
def rM (xr : Fin 128 → ℝ) : ℝ := (rowMax (fun j => ((xr j : ℝ) : EReal))).toReal

theorem rowMax_coe (xr : Fin 128 → ℝ) : rowMax (fun j => ((xr j : ℝ) : EReal)) = ((rM xr : ℝ) : EReal) := by
  refine (EReal.coe_toReal ?_ ?_).symm
  · refine ne_of_lt ?_
    rw [rowMax_eq, Finset.fold_max_lt]
    exact ⟨bot_lt_top, fun j _ => EReal.coe_lt_top _⟩
  · refine ne_of_gt (lt_of_lt_of_le (EReal.bot_lt_coe (xr 0)) ?_)
    rw [rowMax_eq, Finset.le_fold_max]
    exact Or.inr ⟨0, Finset.mem_univ _, le_refl _⟩

theorem max_ninf (y : EReal) : max ninf y = y := by rw [ninf_eq]; exact max_bot_left y

/-! ## The shared real quantities -/

/-- shifted logit -/
def rA (xr : Fin 128 → ℝ) (j : Fin 128) : ℝ := xr j - rM xr
/-- the sum of the exponentials -/
def rS (xr : Fin 128 → ℝ) : ℝ := ∑ k : Fin 128, Real.exp (rA xr k)
/-- log-probability -/
def rLp (xr : Fin 128 → ℝ) (j : Fin 128) : ℝ := rA xr j - Real.log (rS xr)
/-- probability -/
def rP (xr : Fin 128 → ℝ) (j : Fin 128) : ℝ := Real.exp (rLp xr j)
/-- focal weight -/
def rF (xr : Fin 128 → ℝ) (j : Fin 128) : ℝ := (1 - rP xr j) * (1 - rP xr j)
/-- focal weight times log-probability -/
def rFl (xr : Fin 128 → ℝ) (j : Fin 128) : ℝ := rF xr j * rLp xr j

theorem rS_pos (xr : Fin 128 → ℝ) : 0 < rS xr := by
  unfold rS
  exact Finset.sum_pos (fun k _ => Real.exp_pos _) Finset.univ_nonempty

theorem log_rS (xr : Fin 128 → ℝ) : Ideal.log ((rS xr : ℝ) : EReal) = ((Real.log (rS xr) : ℝ) : EReal) := by
  rw [Ideal.log_coe, if_neg (not_le.2 (rS_pos xr))]

/-- The kernel's `e · (1 / s)` is the reference's `exp (a - log s)`. -/
theorem rP_eq (xr : Fin 128 → ℝ) (j : Fin 128) : rP xr j = Real.exp (rA xr j) * (1 / rS xr) := by
  rw [rP, rLp, Real.exp_sub, Real.exp_log (rS_pos xr), div_eq_mul_one_div]

variable (xr : Fin 128 → ℝ) (j : Fin 128)

/-! ## The kernel's quantities -/

theorem kShift_coe : kShift (fun j => ((xr j : ℝ) : EReal)) j = ((rA xr j : ℝ) : EReal) := by
  rw [kShift, rowMax_coe, rA, EReal.coe_sub]

theorem kExp_coe : kExp (fun j => ((xr j : ℝ) : EReal)) j = ((Real.exp (rA xr j) : ℝ) : EReal) := by
  rw [kExp, kShift_coe, Ideal.exp_coe]

theorem kSum_coe : kSum (fun j => ((xr j : ℝ) : EReal)) = ((rS xr : ℝ) : EReal) := by
  rw [kSum, rS, ← coe_sum]
  exact Finset.sum_congr rfl (fun k _ => kExp_coe xr k)

theorem kLogp_coe : kLogp (fun j => ((xr j : ℝ) : EReal)) j = ((rLp xr j : ℝ) : EReal) := by
  rw [kLogp, kShift_coe, kSum_coe, log_rS, rLp, EReal.coe_sub]

theorem kProb_coe : kProb (fun j => ((xr j : ℝ) : EReal)) j = ((rP xr j : ℝ) : EReal) := by
  rw [kProb, kExp_coe, kSum_coe, one_eq, Ideal.div_coe (rS_pos xr).ne', one_mul, ← EReal.coe_mul, rP_eq]

theorem kFocal_coe : kFocal (fun j => ((xr j : ℝ) : EReal)) j = ((rF xr j : ℝ) : EReal) := by
  rw [kFocal, kProb_coe, one_eq, ← EReal.coe_one, ← EReal.coe_sub, ← EReal.coe_mul, rF]

theorem kFl_coe : kFl (fun j => ((xr j : ℝ) : EReal)) j = ((rFl xr j : ℝ) : EReal) := by
  rw [kFl, kFocal_coe, kLogp_coe, ← EReal.coe_mul, rFl]

/-! ## The reference's quantities -/

theorem rShift_coe : rShift (fun j => ((xr j : ℝ) : EReal)) j = ((rA xr j : ℝ) : EReal) := by
  rw [rShift, max_ninf, rowMax_coe, rA, EReal.coe_sub]

theorem rSum_coe : rSum (fun j => ((xr j : ℝ) : EReal)) = ((rS xr : ℝ) : EReal) := by
  rw [rSum, zero_eq, zero_add, rS, ← coe_sum]
  exact Finset.sum_congr rfl (fun k _ => by rw [rShift_coe, Ideal.exp_coe])

theorem rLogp_coe : rLogp (fun j => ((xr j : ℝ) : EReal)) j = ((rLp xr j : ℝ) : EReal) := by
  rw [rLogp, rShift_coe, rSum_coe, log_rS, rLp, EReal.coe_sub]

theorem rProb_coe : rProb (fun j => ((xr j : ℝ) : EReal)) j = ((rP xr j : ℝ) : EReal) := by
  rw [rProb, rLogp_coe, Ideal.exp_coe, rP]

/-- The reference's square by a power `2` is the kernel's square by a product. -/
theorem rFocal_coe : rFocal (fun j => ((xr j : ℝ) : EReal)) j = ((rF xr j : ℝ) : EReal) := by
  rw [rFocal, rProb_coe, one_eq, two_eq, ← EReal.coe_one, ← EReal.coe_sub, Ideal.pow_coe_coe, rF]
  congr 1
  show (1 - rP xr j) ^ (2 : ℝ) = _
  rw [Real.rpow_two, sq]

/-! ## The row loss -/

/-- The two programs' losses of a row of real logits agree. -/
theorem kRow_eq_rRow (xr : Fin 128 → ℝ) (t : Fin 128) (cw : Fin 128 → EReal) (E : Fin 128 → Fin 128 → EReal) :
    kRow (fun j => ((xr j : ℝ) : EReal)) t cw E = rRow (fun j => ((xr j : ℝ) : EReal)) t (cw t) (E t) := by
  obtain ⟨r9, h9⟩ := c9_real
  obtain ⟨rs, hS⟩ := cS_real
  have e1 : ∑ j : Fin 128, oh t j * kFl (fun j => ((xr j : ℝ) : EReal)) j = ((rFl xr t : ℝ) : EReal) := by
    rw [oh_sum, kFl_coe]
  have e2 : ∑ j : Fin 128, kFl (fun j => ((xr j : ℝ) : EReal)) j = ((∑ j : Fin 128, rFl xr j : ℝ) : EReal) := by
    rw [← coe_sum]
    exact Finset.sum_congr rfl (fun j _ => kFl_coe xr j)
  have e3 : ∑ j : Fin 128, (∑ a : Fin 128, oh t a * E a j) * kProb (fun j => ((xr j : ℝ) : EReal)) j
      = ∑ j : Fin 128, E t j * ((rP xr j : ℝ) : EReal) :=
    Finset.sum_congr rfl (fun j _ => by rw [oh_sum t (fun a => E a j), kProb_coe])
  have e4 : ∑ j : Fin 128, rFocal (fun j => ((xr j : ℝ) : EReal)) j * (oh t j * c9 + cS)
        * rLogp (fun j => ((xr j : ℝ) : EReal)) j
      = ((r9 * rFl xr t + rs * ∑ j : Fin 128, rFl xr j : ℝ) : EReal) := by
    rw [h9, hS]
    refine Eq.trans (Finset.sum_congr rfl (fun j _ => ?_)) (smooth_sum t r9 rs (rF xr) (rLp xr))
    rw [rFocal_coe, rLogp_coe]
  have e5 : ∑ j : Fin 128, E t j * rProb (fun j => ((xr j : ℝ) : EReal)) j
      = ∑ j : Fin 128, E t j * ((rP xr j : ℝ) : EReal) :=
    Finset.sum_congr rfl (fun j _ => by rw [rProb_coe])
  rw [kRow, rRow, e1, e2, e3, e4, e5, oh_sum t cw, zero_eq, h9, hS, zero_add, zero_add, ← EReal.coe_mul,
    ← EReal.coe_mul, ← EReal.coe_add, zero_sub]

end Cert.Spec

end
-- ==== Proof.Total.lean ====
/-
  The two programs' results are one extended real.  The kernel's is the mean of `(0 + (0 + Σ_{s<128} L_s)) + (0 + Σ_{s<128} L_{128+s})`
  with `L_n` the loss of block `n` (4096 rows, each in the kernel's spelling); the reference's is the mean of
  `0 + Σ_i` of the row losses in its own spelling.  Row by row the two spellings agree on real logits (RowLoss.lean);
  the rest is the regrouping of one sum over the 2²⁰ rows by blocks and halves (sums of extended reals commute and
  associate), and `0 + y = y`.
-/
import proofs.«405945_j2808908611737_3_alg».proof.Proof.KernelTail
import proofs.«405945_j2808908611737_3_alg».proof.Proof.RefRead
import proofs.«405945_j2808908611737_3_alg».proof.Proof.RowLoss
import proofs.«405945_j2808908611737_3_alg».proof.Proof.PreFacts
import proofs.«405945_j2808908611737_3_alg».proof.Proof.Gen.Pre_finite_inputs

noncomputable section

namespace Cert.Total

open Idealize.ShloMosaic Idealize.ShloMosaic.TcCoe Idealize.SL.Sem Idealize.ShloMosaic.ValueIdx
open Cert.KernelIdeal Cert.KernelIdeal.Acc

/-- The excess-penalty matrix is one function of the penalty matrix in both programs: the same five host operations. -/
theorem excess_eq (P : FVec Ideal S128x128 .f32) (a j : Fin 128) :
    Cert.KernelIdeal.Blocks.excess (F := Ideal) P (ix2 a j) = Cert.ReferenceIdeal.ReadP.val_main_v35 (F := Ideal) P (ix2 a j) := rfl

variable (m : (ℓ : Loc nD τ sig) → Buf (Elt Ideal) ℓ) (tn : Fin 1048576 → Fin 128)

/-- Row `n`'s loss in the reference's spelling (zero past the last row, so that it is a function of every natural). -/
def rowLoss (c : Dev nD) (n : ℕ) : EReal :=
  if h : n < 1048576 then
    Cert.Spec.rRow (fun j : Fin 128 => m ((c : Thread nD τ).loc main_arg0) (ix2 (⟨n, h⟩ : Fin 1048576) j)) (tn ⟨n, h⟩)
      (m ((c : Thread nD τ).loc main_arg2) (ix1 (tn ⟨n, h⟩)))
      (fun j : Fin 128 => Cert.ReferenceIdeal.ReadP.val_main_v35 (F := Ideal) (m ((c : Thread nD τ).loc main_arg3)) (ix2 (tn ⟨n, h⟩) j))
  else 0

/-- A block's loss is the sum of its rows' losses in the reference's spelling, when the logits are real. -/
theorem blockLoss_eq (c : Dev nD)
    (hreal : ∀ (i : Fin 1048576) (j : Fin 128), ∃ r : ℝ, m ((c : Thread nD τ).loc main_arg0) (ix2 i j) = ((r : ℝ) : EReal))
    (n : ℕ) (hn : n < 256) : blockLoss m tn c n = ∑ q : Fin 4096, rowLoss m tn c (4096 * n + q.val) := by
  unfold blockLoss
  rw [dif_pos hn]
  refine Finset.sum_congr rfl fun q _ => ?_
  have hq : 4096 * n + q.val < 1048576 := by have := q.isLt; omega
  unfold rowLoss
  rw [dif_pos hq]
  choose xr hxr using fun j : Fin 128 => hreal ⟨4096 * n + q.val, hq⟩ j
  have ex : (fun j : Fin 128 => m ((c : Thread nD τ).loc main_arg0) (ix2 (⟨4096 * n + q.val, hq⟩ : Fin 1048576) j))
      = fun j : Fin 128 => ((xr j : ℝ) : EReal) := funext hxr
  rw [ex]
  exact Cert.Spec.kRow_eq_rRow xr (tn ⟨4096 * n + q.val, hq⟩) _ _

/-- THE TOTAL: the kernel program's result is the reference's sum of row losses over 2²⁰. -/
theorem result_eq (c : Dev nD)
    (hreal : ∀ (i : Fin 1048576) (j : Fin 128), ∃ r : ℝ, m ((c : Thread nD τ).loc main_arg0) (ix2 i j) = ((r : ℝ) : EReal)) :
    Cert.KernelIdeal.Tail.result m tn c
      = Ideal.div (Cert.Spec.zero + ∑ i : Fin 1048576,
          Cert.Spec.rRow (fun j : Fin 128 => m ((c : Thread nD τ).loc main_arg0) (ix2 i j)) (tn i)
            (m ((c : Thread nD τ).loc main_arg2) (ix1 (tn i)))
            (fun j : Fin 128 => Cert.ReferenceIdeal.ReadP.val_main_v35 (F := Ideal) (m ((c : Thread nD τ).loc main_arg3)) (ix2 (tn i) j)))
          Cert.Spec.cN := by
  unfold Cert.KernelIdeal.Tail.result
  refine congrArg (Ideal.div · Cert.Spec.cN) ?_
  have hz : Cert.Spec.zero = 0 := Ideal.ofBits_zero_f32
  rw [hz, zero_add, zero_add, zero_add, zero_add]
  have hrows : ∑ i : Fin 1048576,
        Cert.Spec.rRow (fun j : Fin 128 => m ((c : Thread nD τ).loc main_arg0) (ix2 i j)) (tn i)
          (m ((c : Thread nD τ).loc main_arg2) (ix1 (tn i)))
          (fun j : Fin 128 => Cert.ReferenceIdeal.ReadP.val_main_v35 (F := Ideal) (m ((c : Thread nD τ).loc main_arg3)) (ix2 (tn i) j))
      = ∑ i : Fin 1048576, rowLoss m tn c i.val :=
    Finset.sum_congr rfl fun i _ => by unfold rowLoss; rw [dif_pos i.isLt]
  rw [hrows, Cert.PreFacts.sum_rows_by_blocks (rowLoss m tn c),
    Cert.PreFacts.sum_blocks_two_halves (fun n => ∑ q : Fin 4096, rowLoss m tn c (4096 * n + q.val))]
  refine congrArg₂ (· + ·) (Finset.sum_congr rfl fun s hs => ?_) (Finset.sum_congr rfl fun s hs => ?_)
  · exact blockLoss_eq m tn c hreal s (by have := Finset.mem_range.mp hs; omega)
  · exact blockLoss_eq m tn c hreal (128 + s) (by have := Finset.mem_range.mp hs; omega)

end Cert.Total

end
-- ==== Proof.lean ====
/-
  The certificate of the confusion-aware focal loss kernel against its jnp reference, over the extended reals.

  Both programs return the mean over 2²⁰ rows of a row loss
  `-(Σ_j (1 - p_j)² · (0.9·[j = t] + 0.1/128) · log p_j) · cw_t + Σ_j E_{t,j} · p_j`, `p` the softmax of the row's 128 logits,
  `t` the row's target class, `cw` the class weights, `E = max (P - 1) 0 · (1 - I)` the excess penalties.  The kernel
  walks 256 blocks of 4096 rows on a 2 × 128 grid and adds each block's loss into entry (0, 0) of its core's output
  block; three host operations then add the two cores' totals and divide.  The precondition: every float input finite
  and every target a class `0 ≤ t < 128` (outside that range the reference's two gathers index out of range).

  Proof/Spec.lean states the row loss in each program's spelling and Proof/RowLoss.lean proves them equal on real logits;
  Proof/KernelRow.lean reads the kernel body's stored block at an entry, Proof/KernelBlocks.lean the windows' blocks as
  rows of the arguments, Proof/KernelPieces.lean and Proof/KernelAcc.lean the accumulation over the grid and the output
  array, Proof/KernelTail.lean the kernel program's run; Proof/RefValue.lean reads the reference's result over its
  generated run; Proof/PreFacts.lean reads the precondition and regroups the sum over the rows; Proof/Total.lean joins
  the two results.  The frames of the two kernel programs are the generated ones; the reference's is its run.
-/
import proofs.«405945_j2808908611737_3_alg».proof.Defs
import proofs.«405945_j2808908611737_3_alg».proof.Proof.Gen.Kernel
import proofs.«405945_j2808908611737_3_alg».proof.Proof.Gen.Kernel.Skeleton
import proofs.«405945_j2808908611737_3_alg».proof.Proof.Gen.Kernel.Launch
import proofs.«405945_j2808908611737_3_alg».proof.Proof.Gen.Kernel.Points
import proofs.«405945_j2808908611737_3_alg».proof.Proof.Gen.Kernel.Frame
import proofs.«405945_j2808908611737_3_alg».proof.Proof.Gen.KernelIdeal
import proofs.«405945_j2808908611737_3_alg».proof.Proof.Gen.KernelIdeal.Skeleton
import proofs.«405945_j2808908611737_3_alg».proof.Proof.Gen.KernelIdeal.Launch
import proofs.«405945_j2808908611737_3_alg».proof.Proof.Gen.KernelIdeal.Points
import proofs.«405945_j2808908611737_3_alg».proof.Proof.Gen.KernelIdeal.Frame
import proofs.«405945_j2808908611737_3_alg».proof.Proof.Gen.ReferenceIdeal
import proofs.«405945_j2808908611737_3_alg».proof.Proof.Gen.Pre_finite_inputs
import proofs.«405945_j2808908611737_3_alg».proof.Proof.RefRun
import proofs.«405945_j2808908611737_3_alg».proof.Proof.RefRead
import proofs.«405945_j2808908611737_3_alg».proof.Proof.RefValue
import proofs.«405945_j2808908611737_3_alg».proof.Proof.KernelTail
import proofs.«405945_j2808908611737_3_alg».proof.Proof.PreFacts
import proofs.«405945_j2808908611737_3_alg».proof.Proof.Total
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Under the precondition the logits are real and the targets are classes; the kernel program then ends at the mean of
    its blocks' losses (Proof/KernelTail.lean), the reference at the mean of its rows' losses (Proof/RefValue.lean) of
    arguments that agree, and the two are one extended real (Proof/Total.lean). -/
theorem algebraic : Cert.algebraic_KernelIdeal_ReferenceIdeal := by
  intro m ρ m' ρ' hpre hagree
  have hreal : ∀ (c : Dev Cert.KernelIdeal.nD) (i : Fin 1048576) (j : Fin 128), ∃ r : ℝ,
      m ((c.tc : Thread Cert.KernelIdeal.nD Cert.KernelIdeal.τ).loc Cert.KernelIdeal.main_arg0) (ix2 i j) = ((r : ℝ) : EReal) :=
    fun c i j => Cert.PreFacts.logit_real _ _ _ _ (hpre c) i j
  have hcl : ∀ i : Fin 1048576, ∃ k : Fin 128,
      m (((0 : Dev Cert.KernelIdeal.nD).tc : Thread Cert.KernelIdeal.nD Cert.KernelIdeal.τ).loc Cert.KernelIdeal.main_arg1) (ix1 i) = BitVec.ofNat 32 k.val :=
    fun i => Cert.PreFacts.target_class _ _ _ _ (hpre 0) i
  choose tn htn using hcl
  have hcls : ∀ (c : Dev Cert.KernelIdeal.nD) (i : Fin 1048576),
      m ((c.tc : Thread Cert.KernelIdeal.nD Cert.KernelIdeal.τ).loc Cert.KernelIdeal.main_arg1) (ix1 i) = BitVec.ofNat 32 (tn i).val :=
    fun c i => by obtain rfl : c = 0 := Subsingleton.elim _ _; exact htn i
  refine ⟨fun c _ => Cert.KernelIdeal.Tail.result m tn c, Cert.KernelIdeal.Tail.run m ρ tn hcls, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v47_eq, (hagree c).1, (hagree c).2.1, (hagree c).2.2.1, (hagree c).2.2.2]
  funext i
  obtain rfl : i = ix0 := eq_ix0 i
  rw [Cert.ReferenceIdeal.RefValue.result_apply _ _ _ _ tn (hcls c)]
  exact (Cert.Total.result_eq m tn c (hreal c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
